-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x160 : Shape := ⟨2, ![50000, 160]⟩
abbrev S32x48 : Shape := ⟨2, ![32, 48]⟩
abbrev S48 : Shape := ⟨1, ![48]⟩
abbrev S131x128 : Shape := ⟨2, ![131, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x160 : S_.BroadcastsInDim S50000x160 (![] : Fin 0 → Fin S50000x160.rank)
  reducesTo_S50000x160_S_d0_1 : S50000x160.ReducesTo [0, 1] S_
  h_S_ : 0 < S_.numel
  bcast_S_S32x48 : S_.BroadcastsInDim S32x48 (![] : Fin 0 → Fin S32x48.rank)
  reducesTo_S32x48_S_d0_1 : S32x48.ReducesTo [0, 1] S_
  bcast_S_S48 : S_.BroadcastsInDim S48 (![] : Fin 0 → Fin S48.rank)
  reducesTo_S48_S_d0 : S48.ReducesTo [0] S_
  bcast_S_S131x128 : S_.BroadcastsInDim S131x128 (![] : Fin 0 → Fin S131x128.rank)
  reducesTo_S131x128_S_d0_1 : S131x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S128x64 .f32) (main_arg8 : FVec F S64 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x64 .f32) (main_arg8 : FVec F S64 .f32) (main_v13 : IVec S_ 1) (main_v16 : IVec S131x128 1) : IVec S_ 1 :=
  let main_c_5 : IVec S_ 1 := constantI S_ 1 1#1
  let main_v17 : IVec S_ 1 := (fun x v => Host.reduce IntOp.andi x v reducesTo_S131x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S50000x160 .f32) (main_arg1 : FVec F S32x48 .f32) (main_arg2 : FVec F S48 .f32) (main_arg3 : FVec F S131x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x160 .f32 := Host.absf main_arg0
  let main_cst : FVec F S_ .f32 := constant S_ .f32 0x7F800000#32
  let main_v1 : FVec F S50000x160 .f32 := broadcastInDim S50000x160 ![] bcast_S_S50000x160 main_cst
  let main_v2 : IVec S50000x160 1 := cmpf .olt main_v0 main_v1
  let main_c : IVec S_ 1 := constantI S_ 1 1#1
  let main_v3 : IVec S_ 1 := (fun x v => Host.reduce IntOp.andi x v reducesTo_S50000x160_S_d0_1 h_S_) main_v2 main_c
  let main_v4 : FVec F S32x48 .f32 := Host.absf main_arg1
  let main_cst_0 : FVec F S_ .f32 := constant S_ .f32 0x7F800000#32
  let main_v5 : FVec F S32x48 .f32 := broadcastInDim S32x48 ![] bcast_S_S32x48 main_cst_0
  let main_v6 : IVec S32x48 1 := cmpf .olt main_v4 main_v5
  let main_c_1 : IVec S_ 1 := constantI S_ 1 1#1
  let main_v7 : IVec S_ 1 := (fun x v => Host.reduce IntOp.andi x v reducesTo_S32x48_S_d0_1 h_S_) main_v6 main_c_1
  let main_v8 : IVec S_ 1 := andi main_v3 main_v7
  let main_v9 : FVec F S48 .f32 := Host.absf main_arg2
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S131x128 .f32 := Host.absf main_arg3
  let main_cst_4 : FVec F S_ .f32 := constant S_ .f32 0x7F800000#32
  let main_v15 : FVec F S131x128 .f32 := broadcastInDim S131x128 ![] bcast_S_S131x128 main_cst_4
  let main_v16 : IVec S131x128 1 := cmpf .olt main_v14 main_v15
  fn_part1 (F := F) main_arg4 main_arg5 main_arg6 main_arg7 main_arg8 main_v13 main_v16
-- ==== Kernel.lean ====
abbrev S50000x160 : Shape := ⟨2, ![50000, 160]⟩
abbrev S32x48 : Shape := ⟨2, ![32, 48]⟩
abbrev S48 : Shape := ⟨1, ![48]⟩
abbrev S131x128 : Shape := ⟨2, ![131, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S3x128 : Shape := ⟨2, ![3, 128]⟩
abbrev S800000x64 : Shape := ⟨2, ![800000, 64]⟩
abbrev S800000x3 : Shape := ⟨2, ![800000, 3]⟩
abbrev S400x160 : Shape := ⟨2, ![400, 160]⟩
abbrev S6400x64 : Shape := ⟨2, ![6400, 64]⟩
abbrev S6400x3 : Shape := ⟨2, ![6400, 3]⟩
abbrev S400x32 : Shape := ⟨2, ![400, 32]⟩
abbrev S400x128 : Shape := ⟨2, ![400, 128]⟩
abbrev S400x48 : Shape := ⟨2, ![400, 48]⟩
abbrev S1x48 : Shape := ⟨2, ![1, 48]⟩
abbrev S400x3 : Shape := ⟨2, ![400, 3]⟩
abbrev S1x128 : Shape := ⟨2, ![1, 128]⟩
abbrev S400x64 : Shape := ⟨2, ![400, 64]⟩
abbrev S1x64 : Shape := ⟨2, ![1, 64]⟩
abbrev S400x1x64 : Shape := ⟨3, ![400, 1, 64]⟩
abbrev S400x16x64 : Shape := ⟨3, ![400, 16, 64]⟩
abbrev S400x1x3 : Shape := ⟨3, ![400, 1, 3]⟩
abbrev S400x16x3 : Shape := ⟨3, ![400, 16, 3]⟩
abbrev S50000 : Shape := ⟨1, ![50000]⟩
abbrev S50000x16 : Shape := ⟨2, ![50000, 16]⟩
abbrev S800000 : Shape := ⟨1, ![800000]⟩

abbrev nBuf : Space → Nat
  | .hbm => 16
  | .vmem => 15
  | .smem => 0
  | _ => 0

abbrev bufTy : (tb : Table) → Fin (tcTables nBuf tb) → BufTy
  | .hbm, ⟨0, _⟩ => ⟨S50000x160, .f32⟩
  | .hbm, ⟨1, _⟩ => ⟨S32x48, .f32⟩
  | .hbm, ⟨2, _⟩ => ⟨S48, .f32⟩
  | .hbm, ⟨3, _⟩ => ⟨S131x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S3x128, .f32⟩
  | .hbm, ⟨10, _⟩ => ⟨S128x128, .f32⟩
  | .hbm, ⟨11, _⟩ => ⟨S800000x64, .f32⟩
  | .hbm, ⟨12, _⟩ => ⟨S800000x3, .f32⟩
  | .hbm, ⟨13, _⟩ => ⟨S50000, .i32⟩
  | .hbm, ⟨14, _⟩ => ⟨S50000x16, .i32⟩
  | .hbm, ⟨15, _⟩ => ⟨S800000, .i32⟩
  | .local _ .vmem, ⟨0, _⟩ => ⟨S400x160, .f32⟩
  | .local _ .vmem, ⟨1, _⟩ => ⟨S400x160, .f32⟩
  | .local _ .vmem, ⟨2, _⟩ => ⟨S32x48, .f32⟩
  | .local _ .vmem, ⟨3, _⟩ => ⟨S48, .f32⟩
  | .local _ .vmem, ⟨4, _⟩ => ⟨S3x128, .f32⟩
  | .local _ .vmem, ⟨5, _⟩ => ⟨S128x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S128x64, .f32⟩
  | .local _ .vmem, ⟨10, _⟩ => ⟨S64, .f32⟩
  | .local _ .vmem, ⟨11, _⟩ => ⟨S6400x64, .f32⟩
  | .local _ .vmem, ⟨12, _⟩ => ⟨S6400x64, .f32⟩
  | .local _ .vmem, ⟨13, _⟩ => ⟨S6400x3, .f32⟩
  | .local _ .vmem, ⟨14, _⟩ => ⟨S6400x3, .f32⟩
  | _, _ => ⟨S50000x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S6400x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S6400x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S131x128_S3x128_0_0 : S131x128.Slices ![0, 0] S3x128
  slices_S131x128_S128x128_3_0 : S131x128.Slices ![3, 0] S128x128
  inb_S400x160_S400x160_0_0 : ∀ a, (![0, 0] : Fin 2 → Nat) a + S400x160.size a ≤ S400x160.size a
  h_S400x160 : 0 < S400x160.numel
  slices_S400x160_o0_0_S400x32 : S400x160.Slices ![0, 0] S400x32
  slices_S400x160_o0_32_S400x128 : S400x160.Slices ![0, 32] S400x128
  inb_S32x48_S32x48_0_0 : ∀ a, (![0, 0] : Fin 2 → Nat) a + S32x48.size a ≤ S32x48.size a
  h_S32x48 : 0 < S32x48.numel
  bitsLt_bf16_f32 : FTy.bits .bf16 < FTy.bits .f32
  inb_S48_S48_0 : ∀ a, (![0] : Fin 1 → Nat) a + S48.size a ≤ S48.size a
  h_S48 : 0 < S48.numel
  shapeCasts_S48_S1x48 : S48.ShapeCasts S1x48
  broadcasts_S1x48_S400x48 : S1x48.Broadcasts S400x48
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S128_S128_0 : ∀ a, (![0] : Fin 1 → Nat) a + S128.size a ≤ S128.size a
  h_S128 : 0 < S128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  slices_S400x48_o0_0_S400x3 : S400x48.Slices ![0, 0] S400x3
  shapeCasts_S128_S1x128 : S128.ShapeCasts S1x128
  broadcasts_S1x128_S400x128 : S1x128.Broadcasts S400x128
  shapeCasts_S64_S1x64 : S64.ShapeCasts S1x64
  broadcasts_S1x64_S400x64 : S1x64.Broadcasts S400x64
  slices_S400x48_o0_3_S400x3 : S400x48.Slices ![0, 3] S400x3
  slices_S400x48_o0_6_S400x3 : S400x48.Slices ![0, 6] S400x3
  slices_S400x48_o0_9_S400x3 : S400x48.Slices ![0, 9] S400x3
  slices_S400x48_o0_12_S400x3 : S400x48.Slices ![0, 12] S400x3
  slices_S400x48_o0_15_S400x3 : S400x48.Slices ![0, 15] S400x3
  slices_S400x48_o0_18_S400x3 : S400x48.Slices ![0, 18] S400x3
  slices_S400x48_o0_21_S400x3 : S400x48.Slices ![0, 21] S400x3
  slices_S400x48_o0_24_S400x3 : S400x48.Slices ![0, 24] S400x3
  slices_S400x48_o0_27_S400x3 : S400x48.Slices ![0, 27] S400x3
  slices_S400x48_o0_30_S400x3 : S400x48.Slices ![0, 30] S400x3
  slices_S400x48_o0_33_S400x3 : S400x48.Slices ![0, 33] S400x3
  slices_S400x48_o0_36_S400x3 : S400x48.Slices ![0, 36] S400x3
  slices_S400x48_o0_39_S400x3 : S400x48.Slices ![0, 39] S400x3
  slices_S400x48_o0_42_S400x3 : S400x48.Slices ![0, 42] S400x3
  slices_S400x48_o0_45_S400x3 : S400x48.Slices ![0, 45] S400x3
  shapeCasts_S400x64_S400x1x64 : S400x64.ShapeCasts S400x1x64
  concatenates_S400x1x64_S400x1x64_S400x1x64_S400x1x64_S400x1x64_S400x1x64_S400x1x64_S400x1x64_S400x1x64_S400x1x64_S400x1x64_S400x1x64_S400x1x64_S400x1x64_S400x1x64_S400x1x64_S400x16x64_d1 : Shape.Concatenates [S400x1x64, S400x1x64, S400x1x64, S400x1x64, S400x1x64, S400x1x64, S400x1x64, S400x1x64, S400x1x64, S400x1x64, S400x1x64, S400x1x64, S400x1x64, S400x1x64, S400x1x64, S400x1x64] S400x16x64 1
  shapeCasts_S400x3_S400x1x3 : S400x3.ShapeCasts S400x1x3
  concatenates_S400x1x3_S400x1x3_S400x1x3_S400x1x3_S400x1x3_S400x1x3_S400x1x3_S400x1x3_S400x1x3_S400x1x3_S400x1x3_S400x1x3_S400x1x3_S400x1x3_S400x1x3_S400x1x3_S400x16x3_d1 : Shape.Concatenates [S400x1x3, S400x1x3, S400x1x3, S400x1x3, S400x1x3, S400x1x3, S400x1x3, S400x1x3, S400x1x3, S400x1x3, S400x1x3, S400x1x3, S400x1x3, S400x1x3, S400x1x3, S400x1x3] S400x16x3 1
  shapeCasts_S400x16x64_S6400x64 : S400x16x64.ShapeCasts S6400x64
  inb_S6400x64_S6400x64_0_0 : ∀ a, (![0, 0] : Fin 2 → Nat) a + S6400x64.size a ≤ S6400x64.size a
  h_S6400x64 : 0 < S6400x64.numel
  shapeCasts_S400x16x3_S6400x3 : S400x16x3.ShapeCasts S6400x3
  inb_S6400x3_S6400x3_0_0 : ∀ a, (![0, 0] : Fin 2 → Nat) a + S6400x3.size a ≤ S6400x3.size a
  h_S6400x3 : 0 < S6400x3.numel
  bcast_S50000_S50000x16_0 : S50000.BroadcastsInDim S50000x16 (![0] : Fin 1 → Fin S50000x16.rank)
  shapeCasts_S50000x16_S800000 : S50000x16.ShapeCasts S800000
  dot_S400x32_S32x48_S400x48_1_0_0_1_n_n_wf : DotDims.WF S400x32 S32x48 S400x48 [1] [0] [0] [1] [] []
  dot_S400x128_S128x128_S400x128_1_0_0_1_n_n_wf : DotDims.WF S400x128 S128x128 S400x128 [1] [0] [0] [1] [] []
  dot_S400x3_S3x128_S400x128_1_0_0_1_n_n_wf : DotDims.WF S400x3 S3x128 S400x128 [1] [0] [0] [1] [] []
  dot_S400x128_S128x64_S400x64_1_0_0_1_n_n_wf : DotDims.WF S400x128 S128x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x160.size a ≤ S50000x160.size a
  hwx0_0 : ∀ i : grid0.Coords, EltTy.bits .f32 = 32 ∨ (Rect.block (s := S50000x160) S400x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x48.size a ≤ S32x48.size a
  hwx0_1 : ∀ i : grid0.Coords, EltTy.bits .f32 = 32 ∨ (Rect.block (s := S32x48) S32x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48.size a ≤ S48.size a
  hwx0_2 : ∀ i : grid0.Coords, EltTy.bits .f32 = 32 ∨ (Rect.block (s := S48) S48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S6400x64.size a ≤ S800000x64.size a
  hwx0_10 : ∀ i : grid0.Coords, EltTy.bits .f32 = 32 ∨ (Rect.block (s := S800000x64) S6400x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S6400x3.size a ≤ S800000x3.size a
  hwx0_11 : ∀ i : grid0.Coords, EltTy.bits .f32 = 32 ∨ (Rect.block (s := S800000x3) S6400x3.size (cc0_transform_11 i) (hinb0_11 i)).WholeWords (EltTy.packing .f32)

variable [Facts₀]

def dot_S400x32_S32x48_S400x48_1_0_0_1_n_n : DotDims S400x32 S32x48 S400x48 where
  lhsContracting := [1]
  rhsContracting := [0]
  lhsNonContracting := [0]
  rhsNonContracting := [1]
  lhsBatch := []
  rhsBatch := []
  wf := dot_S400x32_S32x48_S400x48_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x3_S3x128_S400x128_1_0_0_1_n_n : DotDims S400x3 S3x128 S400x128 where
  lhsContracting := [1]
  rhsContracting := [0]
  lhsNonContracting := [0]
  rhsNonContracting := [1]
  lhsBatch := []
  rhsBatch := []
  wf := dot_S400x3_S3x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf

abbrev win0_0 : Pipeline.Window sig grid0 :=
  Pipeline.Window.ofSpec (Memref.whole main_arg0) S400x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2_0) S6400x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_1) S6400x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x160 : Shape := ⟨2, ![50000, 160]⟩
abbrev S32x48 : Shape := ⟨2, ![32, 48]⟩
abbrev S48 : Shape := ⟨1, ![48]⟩
abbrev S131x128 : Shape := ⟨2, ![131, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000x32 : Shape := ⟨2, ![50000, 32]⟩
abbrev S50000x128 : Shape := ⟨2, ![50000, 128]⟩
abbrev S50000 : Shape := ⟨1, ![50000]⟩
abbrev S50000x48 : Shape := ⟨2, ![50000, 48]⟩
abbrev S1x48 : Shape := ⟨2, ![1, 48]⟩
abbrev S800000x3 : Shape := ⟨2, ![800000, 3]⟩
abbrev S50000x16 : Shape := ⟨2, ![50000, 16]⟩
abbrev S800000 : Shape := ⟨1, ![800000]⟩
abbrev S50000x16x128 : Shape := ⟨3, ![50000, 16, 128]⟩
abbrev S800000x128 : Shape := ⟨2, ![800000, 128]⟩
abbrev S800000x131 : Shape := ⟨2, ![800000, 131]⟩
abbrev S1x128 : Shape := ⟨2, ![1, 128]⟩
abbrev S_ : Shape := ⟨0, ![]⟩
abbrev S800000x64 : Shape := ⟨2, ![800000, 64]⟩
abbrev S1x64 : Shape := ⟨2, ![1, 64]⟩

abbrev nBuf : Space → Nat
  | .hbm => 47
  | .vmem => 0
  | .smem => 0
  | _ => 0

abbrev bufTy : (tb : Table) → Fin (tcTables nBuf tb) → BufTy
  | .hbm, ⟨0, _⟩ => ⟨S50000x160, .f32⟩
  | .hbm, ⟨1, _⟩ => ⟨S32x48, .f32⟩
  | .hbm, ⟨2, _⟩ => ⟨S48, .f32⟩
  | .hbm, ⟨3, _⟩ => ⟨S131x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S50000x32, .f32⟩
  | .hbm, ⟨10, _⟩ => ⟨S50000x128, .f32⟩
  | .hbm, ⟨11, _⟩ => ⟨S50000, .i32⟩
  | .hbm, ⟨12, _⟩ => ⟨S50000x48, .f32⟩
  | .hbm, ⟨13, _⟩ => ⟨S1x48, .f32⟩
  | .hbm, ⟨14, _⟩ => ⟨S50000x48, .f32⟩
  | .hbm, ⟨15, _⟩ => ⟨S50000x48, .f32⟩
  | .hbm, ⟨16, _⟩ => ⟨S50000x48, .f32⟩
  | .hbm, ⟨17, _⟩ => ⟨S800000x3, .f32⟩
  | .hbm, ⟨18, _⟩ => ⟨S50000x16, .i32⟩
  | .hbm, ⟨19, _⟩ => ⟨S800000, .i32⟩
  | .hbm, ⟨20, _⟩ => ⟨S50000x16x128, .f32⟩
  | .hbm, ⟨21, _⟩ => ⟨S800000x128, .f32⟩
  | .hbm, ⟨22, _⟩ => ⟨S800000x131, .f32⟩
  | .hbm, ⟨23, _⟩ => ⟨S800000x128, .f32⟩
  | .hbm, ⟨24, _⟩ => ⟨S1x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S800000x64, .f32⟩
  | .hbm, ⟨38, _⟩ => ⟨S1x64, .f32⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S800000x64, .f32⟩
  | .hbm, ⟨43, _⟩ => ⟨S800000x64, .f32⟩
  | .hbm, ⟨44, _⟩ => ⟨S_, .f32⟩
  | .hbm, ⟨45, _⟩ => ⟨S800000x3, .f32⟩
  | .hbm, ⟨46, _⟩ => ⟨S800000x3, .f32⟩
  | _, _ => ⟨S50000x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call1_cst : Ref sig .tc := ⟨.hbm, 34, rfl⟩
abbrev main_call1_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call2_cst : Ref sig .tc := ⟨.hbm, 41, rfl⟩
abbrev main_call2_v0 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]

class Facts₀ : Prop where
  slices_S50000x160_S50000x32_0_0 : S50000x160.Slices ![0, 0] S50000x32
  slices_S50000x160_S50000x128_0_32 : S50000x160.Slices ![0, 32] S50000x128
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  shapeCasts_S50000x48_S800000x3 : S50000x48.ShapeCasts S800000x3
  bcast_S50000_S50000x16_0 : S50000.BroadcastsInDim S50000x16 (![0] : Fin 1 → Fin S50000x16.rank)
  shapeCasts_S50000x16_S800000 : S50000x16.ShapeCasts S800000
  bcast_S50000x128_S50000x16x128_0_2 : S50000x128.BroadcastsInDim S50000x16x128 (![0, 2] : Fin 2 → Fin S50000x16x128.rank)
  shapeCasts_S50000x16x128_S800000x128 : S50000x16x128.ShapeCasts S800000x128
  concatenates_S800000x3_S800000x128_S800000x131_d1 : Shape.Concatenates [S800000x3, S800000x128] S800000x131 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S800000x3 : S_.BroadcastsInDim S800000x3 (![] : Fin 0 → Fin S800000x3.rank)
  dot_S50000x32_S32x48_S50000x48_1_0_0_1_n_n_wf : DotDims.WF S50000x32 S32x48 S50000x48 [1] [0] [0] [1] [] []
  dot_S800000x131_S131x128_S800000x128_1_0_0_1_n_n_wf : DotDims.WF S800000x131 S131x128 S800000x128 [1] [0] [0] [1] [] []
  dot_S800000x128_S128x128_S800000x128_1_0_0_1_n_n_wf : DotDims.WF S800000x128 S128x128 S800000x128 [1] [0] [0] [1] [] []
  dot_S800000x128_S128x64_S800000x64_1_0_0_1_n_n_wf : DotDims.WF S800000x128 S128x64 S800000x64 [1] [0] [0] [1] [] []

variable [Facts₀]

def dot_S50000x32_S32x48_S50000x48_1_0_0_1_n_n : DotDims S50000x32 S32x48 S50000x48 where
  lhsContracting := [1]
  rhsContracting := [0]
  lhsNonContracting := [0]
  rhsNonContracting := [1]
  lhsBatch := []
  rhsBatch := []
  wf := dot_S50000x32_S32x48_S50000x48_1_0_0_1_n_n_wf
def dot_S800000x131_S131x128_S800000x128_1_0_0_1_n_n : DotDims S800000x131 S131x128 S800000x128 where
  lhsContracting := [1]
  rhsContracting := [0]
  lhsNonContracting := [0]
  rhsNonContracting := [1]
  lhsBatch := []
  rhsBatch := []
  wf := dot_S800000x131_S131x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf

class Facts : Prop extends Facts₀ where

variable [Facts]
-- ==== Proof.Spec.lean ====
/-
  What both programs compute, for one input point, as functions on the extended reals.

  A point has a feature row of 160 numbers: the first 32 are decoded into 48 numbers
  (16 neighbours times 3 coordinates) by one linear layer and tanh; the other 128 are the
  point's features.  For neighbour k the three decoded coordinates and the 128 features go
  through three linear layers, each followed by max(., 0), down to 64 numbers; the three
  coordinates times 1/4 are the neighbour's offset.

  The first of the three layers has a 131-row weight matrix: rows 0..2 meet the three
  coordinates, rows 3..130 the features.  One program forms the 131-vector and takes one sum over
  131 terms; the other takes a sum over 3 terms and a sum over 128 terms and adds them.  A sum
  over Fin (3 + 128) is the sum over its first 3 indices plus the sum over its last 128 in any
  commutative additive monoid, so on the extended reals too, with no finiteness needed.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- A matrix and a vector of extended reals over literal extents. -/
abbrev Mat (a b : Nat) := (⟨2, ![a, b]⟩ : Shape).Idx → EReal
abbrev Vc (a : Nat) := (⟨1, ![a]⟩ : Shape).Idx → EReal

/-- The two float literals of the programs: zero (the threshold of max) and one quarter. -/
abbrev zeroLit : EReal := Ideal.ofBits .f32 0x00000000#32
abbrev quarterLit : EReal := Ideal.ofBits .f32 0x3E800000#32

/-- Decoded coordinate j of a point: tanh of the first 32 features against column j, plus the bias. -/
def decode (row : Fin 160 → EReal) (Wn : Mat 32 48) (bn : Vc 48) (j : Fin 48) : EReal :=
  Ideal.tanh ((∑ q : Fin 32, row ⟨q.val, by omega⟩ * Wn (ix2 q j)) + bn (ix1 j))

/-- The three decoded coordinates of neighbour k. -/
def coord (row : Fin 160 → EReal) (Wn : Mat 32 48) (bn : Vc 48) (k : Fin 16) (d : Fin 3) : EReal :=
  decode row Wn bn ⟨3 * k.val + d.val, by omega⟩

/-- The 128 features of a point. -/
def feats (row : Fin 160 → EReal) (f : Fin 128) : EReal := row ⟨32 + f.val, by omega⟩

/-- First layer with the weight matrix given as its top 3 rows and its other 128 rows. -/
def layer1 (r3 : Fin 3 → EReal) (ff : Fin 128 → EReal) (Wa : Mat 3 128) (Wb : Mat 128 128) (b1 : Vc 128)
    (h : Fin 128) : EReal :=
  max (((∑ d : Fin 3, r3 d * Wa (ix2 d h)) + (∑ f : Fin 128, ff f * Wb (ix2 f h))) + b1 (ix1 h)) zeroLit

/-- A square or narrowing layer: the row against column h, plus the bias, then max with zero. -/
def layer {K N : Nat} (x : Fin K → EReal) (W : Mat K N) (b : Vc N) (h : Fin N) : EReal :=
  max ((∑ j : Fin K, x j * W (ix2 j h)) + b (ix1 h)) zeroLit

/-- The top three rows and the other 128 rows of a 131-row matrix. -/
def topRows (W1 : Mat 131 128) : Mat 3 128 := fun i => W1 (ix2 ⟨(i 0).val, by have := (i 0).isLt; simp at this; omega⟩ ⟨(i 1).val, by have := (i 1).isLt; simpa using this⟩)
def restRows (W1 : Mat 131 128) : Mat 128 128 := fun i => W1 (ix2 ⟨3 + (i 0).val, by have := (i 0).isLt; simp at this; omega⟩ ⟨(i 1).val, by have := (i 1).isLt; simpa using this⟩)

/-- The 64 outputs of neighbour k of a point, the first layer's matrix given in two parts. -/
def mlp (row : Fin 160 → EReal) (Wn : Mat 32 48) (bn : Vc 48) (Wa : Mat 3 128) (Wb : Mat 128 128) (b1 : Vc 128)
    (W2 : Mat 128 128) (b2 : Vc 128) (W3 : Mat 128 64) (b3 : Vc 64) (k : Fin 16) (c : Fin 64) : EReal :=
  layer (layer (layer1 (coord row Wn bn k) (feats row) Wa Wb b1) W2 b2) W3 b3 c

/-- The offset of neighbour k of a point. -/
def offset (row : Fin 160 → EReal) (Wn : Mat 32 48) (bn : Vc 48) (k : Fin 16) (d : Fin 3) : EReal :=
  coord row Wn bn k d * quarterLit

/-- Row n of the feature array. -/
def rowOf {N : Nat} (x : Mat N 160) (n : Fin N) : Fin 160 → EReal := fun a => x (ix2 n a)

/-- The whole results: output row r belongs to point r / 16 and neighbour r % 16. -/
def resultMlp (x : Mat 50000 160) (Wn : Mat 32 48) (bn : Vc 48) (W1 : Mat 131 128) (b1 : Vc 128)
    (W2 : Mat 128 128) (b2 : Vc 128) (W3 : Mat 128 64) (b3 : Vc 64) : Mat 800000 64 := fun i =>
  mlp (rowOf x ⟨(i 0).val / 16, by have := (i 0).isLt; simp at this; omega⟩) Wn bn (topRows W1) (restRows W1) b1 W2 b2 W3 b3
    ⟨(i 0).val % 16, by omega⟩ ⟨(i 1).val, by have := (i 1).isLt; simpa using this⟩

def resultOffset (x : Mat 50000 160) (Wn : Mat 32 48) (bn : Vc 48) : Mat 800000 3 := fun i =>
  offset (rowOf x ⟨(i 0).val / 16, by have := (i 0).isLt; simp at this; omega⟩) Wn bn
    ⟨(i 0).val % 16, by omega⟩ ⟨(i 1).val, by have := (i 1).isLt; simpa using this⟩

/-- One sum over the 131 rows is the sum over the top three plus the sum over the rest. -/
theorem sum_131_split (g : Fin 131 → EReal) :
    (∑ j : Fin 131, g j) = (∑ d : Fin 3, g ⟨d.val, by omega⟩) + ∑ f : Fin 128, g ⟨3 + f.val, by omega⟩ := by
  have h := Fin.sum_univ_add (a := 3) (b := 128) (fun j : Fin (3 + 128) => g j)
  exact h

end Cert.Spec

end
-- ==== Proof.LibMatmul2.lean ====
/-
  A rank-2 by rank-2 `tpu.matmul` into the zero accumulator, read at an index at the ideal values.

  For a dimension record that contracts the left operand's second axis against the right operand's first, with no batch
  axis, the product of an [M, K] and a [K, N] matrix read at (p, h) is the plain sum  Σₖ a (p, k) · b (k, h)  over the
  extended reals. The record's four coordinate facts (which operand coordinate is the output's row, the output's column,
  the contraction index) are hypotheses: each is decided on a literal record by whoever instantiates the lemma.
-/
import Idealize.ShloMosaic.PureOps.Ideal.Laws
import Idealize.ShloMosaic.Lib.ValueIdx

noncomputable section

namespace Cert.LibMatmul2

open Idealize.ShloMosaic Idealize.ShloMosaic.ValueIdx

/-- The matrix product into a zero accumulator at (p, h) is Σₖ a (p, k) · b (k, h). -/
theorem matmul_zero_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    matmul D none a b (constant ⟨2, ![M, N]⟩ .f32 0x00000000#32) (ix2 p h) = ∑ k : Fin K, a (ix2 p k) * b (ix2 k h) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibMatmul2

end
-- ==== Proof.LibDotAxes.lean ====
/-
  The four coordinate facts of a rank-2 by rank-2 dimension record that contracts the left operand's columns with the
  right operand's rows and has no batch axis, from the record's six axis lists.

  For such a record the left operand is read at (output row, contraction index) and the right operand at
  (contraction index, output column); the contraction shape has one axis, of the shared extent. A literal record
  gives the six list equations by computation, and these lemmas turn them into the hypotheses a matrix product read
  at an index asks for.
-/
import Idealize.ShloMosaic.PureOps.Dims

namespace Cert.LibDotAxes

open Idealize.ShloMosaic

variable {M K N : Nat} (D : DotDims ⟨2, ![M, K]⟩ ⟨2, ![K, N]⟩ ⟨2, ![M, N]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) (h : 0 < D.contr.rank) : D.contr.size ⟨0, h⟩ = K := by
  have h0 : 0 < D.lhsContracting.length := by rw [hlc]; exact Nat.one_pos
  rw [D.size_contr 0 h0]
  have e : D.lhsContracting[0]'h0 = (1 : Fin 2) := by simp [hlc]
  rw [e]; rfl

private theorem val_congr {n : Nat} {sz : Fin n → Nat} (i : (a : Fin n) → Fin (sz a)) :
    ∀ (p q : Nat) (hp : p < n) (hq : q < n), p = q → (i ⟨p, hp⟩).val = (i ⟨q, hq⟩).val :=
  fun p q hp hq h => by subst h; rfl

/-- The left operand's row coordinate is the output's row. -/
theorem lhs_row (hlb : D.lhsBatch = []) (hln : D.lhsNonContracting = [0])
    (i : (⟨2, ![M, N]⟩ : Shape).Idx) (q : D.contr.Idx) : (D.lhsIdx i q 0).val = (i 0).val := by
  have h1 : (0 : Fin 2) ∉ D.lhsBatch := by rw [hlb]; exact List.not_mem_nil
  have h2 : (0 : Fin 2) ∈ D.lhsNonContracting := by rw [hln]; exact List.mem_singleton.mpr rfl
  unfold DotDims.lhsIdx
  rw [dif_neg h1, dif_pos h2]
  simp only [Fin.val_cast]
  exact val_congr i _ _ _ _ (by simp [hlb, hln])

/-- The left operand's column coordinate is the contraction index. -/
theorem lhs_col (hlc : D.lhsContracting = [1]) (i : (⟨2, ![M, N]⟩ : Shape).Idx) (q : D.contr.Idx)
    (h : 0 < D.contr.rank) : (D.lhsIdx i q 1).val = (q ⟨0, h⟩).val :=
  D.lhsIdx_val_of_single hlc i q

/-- The right operand's row coordinate is the contraction index. -/
theorem rhs_row (hrc : D.rhsContracting = [0]) (i : (⟨2, ![M, N]⟩ : Shape).Idx) (q : D.contr.Idx)
    (h : 0 < D.contr.rank) : (D.rhsIdx i q 0).val = (q ⟨0, h⟩).val :=
  D.rhsIdx_val_of_single hrc i q

/-- The right operand's column coordinate is the output's column. -/
theorem rhs_col (hlb : D.lhsBatch = []) (hln : D.lhsNonContracting = [0]) (hrb : D.rhsBatch = [])
    (hrn : D.rhsNonContracting = [1]) (i : (⟨2, ![M, N]⟩ : Shape).Idx) (q : D.contr.Idx) :
    (D.rhsIdx i q 1).val = (i 1).val := by
  have h1 : (1 : Fin 2) ∉ D.rhsBatch := by rw [hrb]; exact List.not_mem_nil
  have h2 : (1 : Fin 2) ∈ D.rhsNonContracting := by rw [hrn]; exact List.mem_singleton.mpr rfl
  unfold DotDims.rhsIdx
  rw [dif_neg h1, dif_pos h2]
  simp only [Fin.val_cast]
  exact val_congr i _ _ _ _ (by simp [hlb, hln, hrn])

end Cert.LibDotAxes
-- ==== Proof.KernelBlock.lean ====
/-
  What one grid step leaves in its two output blocks, read at an index.

  A step handles 400 points.  Row 16 p + k of either output block belongs to point p of the step
  and neighbour k: the 16 per-neighbour results, each a [400, w] array, are stacked along a new
  middle axis and the [400, 16, w] stack is flattened row-major to [6400, w].
-/
import proofs.«176419_j4294967296690_1_alg».proof.Proof.Gen.KernelIdeal.Frame
import proofs.«176419_j4294967296690_1_alg».proof.Proof.Spec
import proofs.«176419_j4294967296690_1_alg».proof.Proof.LibMatmul2
import proofs.«176419_j4294967296690_1_alg».proof.Proof.LibDotAxes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelBlock

open Idealize.ShloMosaic Idealize.ShloMosaic.TcCoe Idealize.ShloMosaic.ValueIdx
open Cert.KernelIdeal Cert.KernelIdeal.Gen

/-! ## The four matrix products at an index -/

theorem mm_decode (a : FVec Ideal S400x32 .bf16) (b : FVec Ideal S32x48 .bf16) (p : Fin 400) (h : Fin 48) :
    matmul dot_S400x32_S32x48_S400x48_1_0_0_1_n_n none a b (constant S400x48 .f32 0x00000000#32) (ix2 p h)
      = ∑ k : Fin 32, a (ix2 p k) * b (ix2 k h) :=
  LibMatmul2.matmul_zero_apply _ (LibDotAxes.contr_rank _ rfl) (LibDotAxes.contr_size _ rfl _)
    (LibDotAxes.lhs_row _ rfl rfl) (fun i q => LibDotAxes.lhs_col _ rfl i q _) (fun i q => LibDotAxes.rhs_row _ rfl i q _)
    (LibDotAxes.rhs_col _ rfl rfl rfl rfl) a b p h

theorem mm_coord (a : FVec Ideal S400x3 .bf16) (b : FVec Ideal S3x128 .bf16) (p : Fin 400) (h : Fin 128) :
    matmul dot_S400x3_S3x128_S400x128_1_0_0_1_n_n none a b (constant S400x128 .f32 0x00000000#32) (ix2 p h)
      = ∑ k : Fin 3, a (ix2 p k) * b (ix2 k h) :=
  LibMatmul2.matmul_zero_apply _ (LibDotAxes.contr_rank _ rfl) (LibDotAxes.contr_size _ rfl _)
    (LibDotAxes.lhs_row _ rfl rfl) (fun i q => LibDotAxes.lhs_col _ rfl i q _) (fun i q => LibDotAxes.rhs_row _ rfl i q _)
    (LibDotAxes.rhs_col _ rfl rfl rfl rfl) a b p h

theorem mm_square (a : FVec Ideal S400x128 .bf16) (b : FVec Ideal S128x128 .bf16) (p : Fin 400) (h : Fin 128) :
    matmul dot_S400x128_S128x128_S400x128_1_0_0_1_n_n none a b (constant S400x128 .f32 0x00000000#32) (ix2 p h)
      = ∑ k : Fin 128, a (ix2 p k) * b (ix2 k h) :=
  LibMatmul2.matmul_zero_apply _ (LibDotAxes.contr_rank _ rfl) (LibDotAxes.contr_size _ rfl _)
    (LibDotAxes.lhs_row _ rfl rfl) (fun i q => LibDotAxes.lhs_col _ rfl i q _) (fun i q => LibDotAxes.rhs_row _ rfl i q _)
    (LibDotAxes.rhs_col _ rfl rfl rfl rfl) a b p h

theorem mm_narrow (a : FVec Ideal S400x128 .bf16) (b : FVec Ideal S128x64 .bf16) (p : Fin 400) (h : Fin 64) :
    matmul dot_S400x128_S128x64_S400x64_1_0_0_1_n_n none a b (constant S400x64 .f32 0x00000000#32) (ix2 p h)
      = ∑ k : Fin 128, a (ix2 p k) * b (ix2 k h) :=
  LibMatmul2.matmul_zero_apply _ (LibDotAxes.contr_rank _ rfl) (LibDotAxes.contr_size _ rfl _)
    (LibDotAxes.lhs_row _ rfl rfl) (fun i q => LibDotAxes.lhs_col _ rfl i q _) (fun i q => LibDotAxes.rhs_row _ rfl i q _)
    (LibDotAxes.rhs_col _ rfl rfl rfl rfl) a b p h

/-- A bias vector cast to one row and repeated down the rows reads its own entry at the column. -/
theorem bias_apply {a b : Nat} (v : (⟨1, ![b]⟩ : Shape).Idx → EReal)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-! ## One neighbour's three layers at an index -/

theorem nb_apply (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32)
    (v178 : FVec Ideal S400x3 .bf16) (p : Fin 400) (c : Fin 64) :
    k0_pay31 v16 v19 v20 v22 v23 v25 v26 v178 (ix2 p c)
      = Spec.layer (Spec.layer (fun h => max (((∑ d : Fin 3, v178 (ix2 p d) * v19 (ix2 d h)) + v16 (ix2 p h)) + v20 (ix1 h)) Spec.zeroLit)
          v22 v23) v25 v26 c := by
  unfold k0_pay31
  simp only [Spec.layer, maximumf_apply, addf_apply, truncf_apply, broadcast_apply, mm_coord, mm_square, mm_narrow, bias_apply]
  rfl

/-! ## The decoded coordinates and the feature product at an index -/

theorem hz2 : (![0, 0] : Fin 2 → Nat) = fun _ => 0 := funext fun a => by fin_cases a <;> rfl
theorem hz1 : (![0] : Fin 1 → Nat) = fun _ => 0 := funext fun a => by fin_cases a; rfl

/-- Column j of the decoded block, at point p, is the specification's decoded coordinate of row p. -/
theorem decode_apply (x0 : Vec Ideal S400x160 .f32) (x1 : Vec Ideal S32x48 .f32) (x2 : Vec Ideal S48 .f32)
    (p : Fin 400) (j : Fin 48) :
    k0_pay1 x0 x1 x2 (ix2 p j) = Spec.decode (Spec.rowOf x0 p) x1 x2 j := by
  unfold k0_pay1 Spec.decode Spec.rowOf
  refine congrArg Ideal.tanh ?_
  rw [addf_apply, mm_decode, bias_apply]
  refine congrArg (· + x2 (ix1 j)) (Finset.sum_congr rfl fun q _ => ?_)
  rw [truncf_apply, truncf_apply, slice2_axis1_apply 0 x0 _ p q ⟨q.val, by omega⟩ (by simp)]

/-- The feature product: the last 128 entries of row p against column h of the lower weight rows. -/
theorem featprod_apply (x0 : Vec Ideal S400x160 .f32) (x4 : Vec Ideal S128x128 .f32) (p : Fin 400) (h : Fin 128) :
    k0_pay2 x0 x4 (ix2 p h) = ∑ f : Fin 128, Spec.feats (Spec.rowOf x0 p) f * x4 (ix2 f h) := by
  unfold k0_pay2 Spec.feats Spec.rowOf
  rw [mm_square]
  refine Finset.sum_congr rfl fun f _ => ?_
  rw [truncf_apply, truncf_apply, shapeCast_self, slice2_axis1_apply 32 x0 _ p f ⟨32 + f.val, by omega⟩ rfl]

/-- One neighbour's 64-vector, given that its slice holds the neighbour's three decoded coordinates. -/
theorem nb_mlp (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32)
    (k : Fin 16) (sl : FVec Ideal S400x3 .f32)
    (hsl : ∀ (p : Fin 400) (d : Fin 3), sl (ix2 p d) = Spec.coord (Spec.rowOf x0 p) x1 x2 k d)
    (p : Fin 400) (c : Fin 64) :
    k0_pay31 (k0_pay2 x0 x4) (k0_pay3 x3) x5 (k0_pay4 x6) x7 (k0_pay5 x8) x9 (truncf .bf16 sl bitsLt_bf16_f32) (ix2 p c)
      = Spec.mlp (Spec.rowOf x0 p) x1 x2 x3 x4 x5 x6 x7 x8 x9 k c := by
  rw [nb_apply]
  unfold Spec.mlp Spec.layer1 k0_pay3 k0_pay4 k0_pay5
  simp only [truncf_apply, hsl, featprod_apply, shapeCast_self]
  rfl

/-- One neighbour's offset, likewise: the slice times one quarter. -/
theorem nb_offset (x0 : Vec Ideal S400x160 .f32) (x1 : Vec Ideal S32x48 .f32) (x2 : Vec Ideal S48 .f32)
    (k : Fin 16) (sl : FVec Ideal S400x3 .f32)
    (hsl : ∀ (p : Fin 400) (d : Fin 3), sl (ix2 p d) = Spec.coord (Spec.rowOf x0 p) x1 x2 k d)
    (p : Fin 400) (d : Fin 3) :
    k0_pay9 sl (ix2 p d) = Spec.offset (Spec.rowOf x0 p) x1 x2 k d := by
  unfold k0_pay9 Spec.offset
  rw [mulf_apply, broadcast_apply, hsl]
  rfl

/-! Columns 3 k, 3 k + 1, 3 k + 2 of the decoded block are neighbour k's coordinates. -/
theorem coordslice_0 (x0 : Vec Ideal S400x160 .f32) (x1 : Vec Ideal S32x48 .f32) (x2 : Vec Ideal S48 .f32) (p : Fin 400) (d : Fin 3) :
    extractStridedSlice S400x3 ![0, 0] (k0_pay1 x0 x1 x2) slices_S400x48_o0_0_S400x3 (ix2 p d)
      = Spec.coord (Spec.rowOf x0 p) x1 x2 (⟨0, by omega⟩ : Fin 16) d := by
  rw [slice2_axis1_apply 0 (k0_pay1 x0 x1 x2) slices_S400x48_o0_0_S400x3 p d (⟨0 + d.val, by omega⟩ : Fin 48) rfl, decode_apply]
  exact congrArg (Spec.decode (Spec.rowOf x0 p) x1 x2) (Fin.ext (by show 0 + d.val = 3 * 0 + d.val; omega))
theorem coordslice_1 (x0 : Vec Ideal S400x160 .f32) (x1 : Vec Ideal S32x48 .f32) (x2 : Vec Ideal S48 .f32) (p : Fin 400) (d : Fin 3) :
    extractStridedSlice S400x3 ![0, 3] (k0_pay1 x0 x1 x2) slices_S400x48_o0_3_S400x3 (ix2 p d)
      = Spec.coord (Spec.rowOf x0 p) x1 x2 (⟨1, by omega⟩ : Fin 16) d := by
  rw [slice2_axis1_apply 3 (k0_pay1 x0 x1 x2) slices_S400x48_o0_3_S400x3 p d (⟨3 + d.val, by omega⟩ : Fin 48) rfl, decode_apply]
  exact congrArg (Spec.decode (Spec.rowOf x0 p) x1 x2) (Fin.ext (by show 3 + d.val = 3 * 1 + d.val; omega))
theorem coordslice_2 (x0 : Vec Ideal S400x160 .f32) (x1 : Vec Ideal S32x48 .f32) (x2 : Vec Ideal S48 .f32) (p : Fin 400) (d : Fin 3) :
    extractStridedSlice S400x3 ![0, 6] (k0_pay1 x0 x1 x2) slices_S400x48_o0_6_S400x3 (ix2 p d)
      = Spec.coord (Spec.rowOf x0 p) x1 x2 (⟨2, by omega⟩ : Fin 16) d := by
  rw [slice2_axis1_apply 6 (k0_pay1 x0 x1 x2) slices_S400x48_o0_6_S400x3 p d (⟨6 + d.val, by omega⟩ : Fin 48) rfl, decode_apply]
  exact congrArg (Spec.decode (Spec.rowOf x0 p) x1 x2) (Fin.ext (by show 6 + d.val = 3 * 2 + d.val; omega))
theorem coordslice_3 (x0 : Vec Ideal S400x160 .f32) (x1 : Vec Ideal S32x48 .f32) (x2 : Vec Ideal S48 .f32) (p : Fin 400) (d : Fin 3) :
    extractStridedSlice S400x3 ![0, 9] (k0_pay1 x0 x1 x2) slices_S400x48_o0_9_S400x3 (ix2 p d)
      = Spec.coord (Spec.rowOf x0 p) x1 x2 (⟨3, by omega⟩ : Fin 16) d := by
  rw [slice2_axis1_apply 9 (k0_pay1 x0 x1 x2) slices_S400x48_o0_9_S400x3 p d (⟨9 + d.val, by omega⟩ : Fin 48) rfl, decode_apply]
  exact congrArg (Spec.decode (Spec.rowOf x0 p) x1 x2) (Fin.ext (by show 9 + d.val = 3 * 3 + d.val; omega))
theorem coordslice_4 (x0 : Vec Ideal S400x160 .f32) (x1 : Vec Ideal S32x48 .f32) (x2 : Vec Ideal S48 .f32) (p : Fin 400) (d : Fin 3) :
    extractStridedSlice S400x3 ![0, 12] (k0_pay1 x0 x1 x2) slices_S400x48_o0_12_S400x3 (ix2 p d)
      = Spec.coord (Spec.rowOf x0 p) x1 x2 (⟨4, by omega⟩ : Fin 16) d := by
  rw [slice2_axis1_apply 12 (k0_pay1 x0 x1 x2) slices_S400x48_o0_12_S400x3 p d (⟨12 + d.val, by omega⟩ : Fin 48) rfl, decode_apply]
  exact congrArg (Spec.decode (Spec.rowOf x0 p) x1 x2) (Fin.ext (by show 12 + d.val = 3 * 4 + d.val; omega))
theorem coordslice_5 (x0 : Vec Ideal S400x160 .f32) (x1 : Vec Ideal S32x48 .f32) (x2 : Vec Ideal S48 .f32) (p : Fin 400) (d : Fin 3) :
    extractStridedSlice S400x3 ![0, 15] (k0_pay1 x0 x1 x2) slices_S400x48_o0_15_S400x3 (ix2 p d)
      = Spec.coord (Spec.rowOf x0 p) x1 x2 (⟨5, by omega⟩ : Fin 16) d := by
  rw [slice2_axis1_apply 15 (k0_pay1 x0 x1 x2) slices_S400x48_o0_15_S400x3 p d (⟨15 + d.val, by omega⟩ : Fin 48) rfl, decode_apply]
  exact congrArg (Spec.decode (Spec.rowOf x0 p) x1 x2) (Fin.ext (by show 15 + d.val = 3 * 5 + d.val; omega))
theorem coordslice_6 (x0 : Vec Ideal S400x160 .f32) (x1 : Vec Ideal S32x48 .f32) (x2 : Vec Ideal S48 .f32) (p : Fin 400) (d : Fin 3) :
    extractStridedSlice S400x3 ![0, 18] (k0_pay1 x0 x1 x2) slices_S400x48_o0_18_S400x3 (ix2 p d)
      = Spec.coord (Spec.rowOf x0 p) x1 x2 (⟨6, by omega⟩ : Fin 16) d := by
  rw [slice2_axis1_apply 18 (k0_pay1 x0 x1 x2) slices_S400x48_o0_18_S400x3 p d (⟨18 + d.val, by omega⟩ : Fin 48) rfl, decode_apply]
  exact congrArg (Spec.decode (Spec.rowOf x0 p) x1 x2) (Fin.ext (by show 18 + d.val = 3 * 6 + d.val; omega))
theorem coordslice_7 (x0 : Vec Ideal S400x160 .f32) (x1 : Vec Ideal S32x48 .f32) (x2 : Vec Ideal S48 .f32) (p : Fin 400) (d : Fin 3) :
    extractStridedSlice S400x3 ![0, 21] (k0_pay1 x0 x1 x2) slices_S400x48_o0_21_S400x3 (ix2 p d)
      = Spec.coord (Spec.rowOf x0 p) x1 x2 (⟨7, by omega⟩ : Fin 16) d := by
  rw [slice2_axis1_apply 21 (k0_pay1 x0 x1 x2) slices_S400x48_o0_21_S400x3 p d (⟨21 + d.val, by omega⟩ : Fin 48) rfl, decode_apply]
  exact congrArg (Spec.decode (Spec.rowOf x0 p) x1 x2) (Fin.ext (by show 21 + d.val = 3 * 7 + d.val; omega))
theorem coordslice_8 (x0 : Vec Ideal S400x160 .f32) (x1 : Vec Ideal S32x48 .f32) (x2 : Vec Ideal S48 .f32) (p : Fin 400) (d : Fin 3) :
    extractStridedSlice S400x3 ![0, 24] (k0_pay1 x0 x1 x2) slices_S400x48_o0_24_S400x3 (ix2 p d)
      = Spec.coord (Spec.rowOf x0 p) x1 x2 (⟨8, by omega⟩ : Fin 16) d := by
  rw [slice2_axis1_apply 24 (k0_pay1 x0 x1 x2) slices_S400x48_o0_24_S400x3 p d (⟨24 + d.val, by omega⟩ : Fin 48) rfl, decode_apply]
  exact congrArg (Spec.decode (Spec.rowOf x0 p) x1 x2) (Fin.ext (by show 24 + d.val = 3 * 8 + d.val; omega))
theorem coordslice_9 (x0 : Vec Ideal S400x160 .f32) (x1 : Vec Ideal S32x48 .f32) (x2 : Vec Ideal S48 .f32) (p : Fin 400) (d : Fin 3) :
    extractStridedSlice S400x3 ![0, 27] (k0_pay1 x0 x1 x2) slices_S400x48_o0_27_S400x3 (ix2 p d)
      = Spec.coord (Spec.rowOf x0 p) x1 x2 (⟨9, by omega⟩ : Fin 16) d := by
  rw [slice2_axis1_apply 27 (k0_pay1 x0 x1 x2) slices_S400x48_o0_27_S400x3 p d (⟨27 + d.val, by omega⟩ : Fin 48) rfl, decode_apply]
  exact congrArg (Spec.decode (Spec.rowOf x0 p) x1 x2) (Fin.ext (by show 27 + d.val = 3 * 9 + d.val; omega))
theorem coordslice_10 (x0 : Vec Ideal S400x160 .f32) (x1 : Vec Ideal S32x48 .f32) (x2 : Vec Ideal S48 .f32) (p : Fin 400) (d : Fin 3) :
    extractStridedSlice S400x3 ![0, 30] (k0_pay1 x0 x1 x2) slices_S400x48_o0_30_S400x3 (ix2 p d)
      = Spec.coord (Spec.rowOf x0 p) x1 x2 (⟨10, by omega⟩ : Fin 16) d := by
  rw [slice2_axis1_apply 30 (k0_pay1 x0 x1 x2) slices_S400x48_o0_30_S400x3 p d (⟨30 + d.val, by omega⟩ : Fin 48) rfl, decode_apply]
  exact congrArg (Spec.decode (Spec.rowOf x0 p) x1 x2) (Fin.ext (by show 30 + d.val = 3 * 10 + d.val; omega))
theorem coordslice_11 (x0 : Vec Ideal S400x160 .f32) (x1 : Vec Ideal S32x48 .f32) (x2 : Vec Ideal S48 .f32) (p : Fin 400) (d : Fin 3) :
    extractStridedSlice S400x3 ![0, 33] (k0_pay1 x0 x1 x2) slices_S400x48_o0_33_S400x3 (ix2 p d)
      = Spec.coord (Spec.rowOf x0 p) x1 x2 (⟨11, by omega⟩ : Fin 16) d := by
  rw [slice2_axis1_apply 33 (k0_pay1 x0 x1 x2) slices_S400x48_o0_33_S400x3 p d (⟨33 + d.val, by omega⟩ : Fin 48) rfl, decode_apply]
  exact congrArg (Spec.decode (Spec.rowOf x0 p) x1 x2) (Fin.ext (by show 33 + d.val = 3 * 11 + d.val; omega))
theorem coordslice_12 (x0 : Vec Ideal S400x160 .f32) (x1 : Vec Ideal S32x48 .f32) (x2 : Vec Ideal S48 .f32) (p : Fin 400) (d : Fin 3) :
    extractStridedSlice S400x3 ![0, 36] (k0_pay1 x0 x1 x2) slices_S400x48_o0_36_S400x3 (ix2 p d)
      = Spec.coord (Spec.rowOf x0 p) x1 x2 (⟨12, by omega⟩ : Fin 16) d := by
  rw [slice2_axis1_apply 36 (k0_pay1 x0 x1 x2) slices_S400x48_o0_36_S400x3 p d (⟨36 + d.val, by omega⟩ : Fin 48) rfl, decode_apply]
  exact congrArg (Spec.decode (Spec.rowOf x0 p) x1 x2) (Fin.ext (by show 36 + d.val = 3 * 12 + d.val; omega))
theorem coordslice_13 (x0 : Vec Ideal S400x160 .f32) (x1 : Vec Ideal S32x48 .f32) (x2 : Vec Ideal S48 .f32) (p : Fin 400) (d : Fin 3) :
    extractStridedSlice S400x3 ![0, 39] (k0_pay1 x0 x1 x2) slices_S400x48_o0_39_S400x3 (ix2 p d)
      = Spec.coord (Spec.rowOf x0 p) x1 x2 (⟨13, by omega⟩ : Fin 16) d := by
  rw [slice2_axis1_apply 39 (k0_pay1 x0 x1 x2) slices_S400x48_o0_39_S400x3 p d (⟨39 + d.val, by omega⟩ : Fin 48) rfl, decode_apply]
  exact congrArg (Spec.decode (Spec.rowOf x0 p) x1 x2) (Fin.ext (by show 39 + d.val = 3 * 13 + d.val; omega))
theorem coordslice_14 (x0 : Vec Ideal S400x160 .f32) (x1 : Vec Ideal S32x48 .f32) (x2 : Vec Ideal S48 .f32) (p : Fin 400) (d : Fin 3) :
    extractStridedSlice S400x3 ![0, 42] (k0_pay1 x0 x1 x2) slices_S400x48_o0_42_S400x3 (ix2 p d)
      = Spec.coord (Spec.rowOf x0 p) x1 x2 (⟨14, by omega⟩ : Fin 16) d := by
  rw [slice2_axis1_apply 42 (k0_pay1 x0 x1 x2) slices_S400x48_o0_42_S400x3 p d (⟨42 + d.val, by omega⟩ : Fin 48) rfl, decode_apply]
  exact congrArg (Spec.decode (Spec.rowOf x0 p) x1 x2) (Fin.ext (by show 42 + d.val = 3 * 14 + d.val; omega))
theorem coordslice_15 (x0 : Vec Ideal S400x160 .f32) (x1 : Vec Ideal S32x48 .f32) (x2 : Vec Ideal S48 .f32) (p : Fin 400) (d : Fin 3) :
    extractStridedSlice S400x3 ![0, 45] (k0_pay1 x0 x1 x2) slices_S400x48_o0_45_S400x3 (ix2 p d)
      = Spec.coord (Spec.rowOf x0 p) x1 x2 (⟨15, by omega⟩ : Fin 16) d := by
  rw [slice2_axis1_apply 45 (k0_pay1 x0 x1 x2) slices_S400x48_o0_45_S400x3 p d (⟨45 + d.val, by omega⟩ : Fin 48) rfl, decode_apply]
  exact congrArg (Spec.decode (Spec.rowOf x0 p) x1 x2) (Fin.ext (by show 45 + d.val = 3 * 15 + d.val; omega))

/-! ## Each neighbour's piece is the same computation of its own coordinate slice

The body is written out once per neighbour; every copy is, by unfolding, the one three-layer
computation applied to columns 3 k, 3 k + 1, 3 k + 2 of the decoded block, and every offset piece
is that slice times one quarter. -/

theorem piece64_0 (x0 : Vec Ideal S400x160 .f32) (x1 : Vec Ideal S32x48 .f32) (x2 : Vec Ideal S48 .f32)
    (x3 : Vec Ideal S3x128 .f32) (x4 : Vec Ideal S128x128 .f32) (x5 : Vec Ideal S128 .f32) (x6 : Vec Ideal S128x128 .f32)
    (v23 : Vec Ideal S128 .f32) (v25 : FVec Ideal S128x64 .bf16) (v26 : Vec Ideal S64 .f32) :
    k0_pay8 v23 v25 v26 (k0_pay7 x0 x1 x2 x4 x3 x5 x6)
      = k0_pay31 (k0_pay2 x0 x4) (k0_pay3 x3) x5 (k0_pay4 x6) v23 v25 v26 (truncf .bf16 (extractStridedSlice S400x3 ![0, 0] (k0_pay1 x0 x1 x2) slices_S400x48_o0_0_S400x3) bitsLt_bf16_f32) := rfl
theorem piece3_0 (x0 : Vec Ideal S400x160 .f32) (x1 : Vec Ideal S32x48 .f32) (x2 : Vec Ideal S48 .f32) :
    k0_pay9 (k0_pay6 x0 x1 x2) = k0_pay9 (extractStridedSlice S400x3 ![0, 0] (k0_pay1 x0 x1 x2) slices_S400x48_o0_0_S400x3) := rfl
theorem piece64_1 (v11 : FVec Ideal S400x48 .f32) (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32) :
    k0_pay11 v11 v16 v19 v20 v22 v23 v25 v26
      = k0_pay31 v16 v19 v20 v22 v23 v25 v26 (truncf .bf16 (extractStridedSlice S400x3 ![0, 3] v11 slices_S400x48_o0_3_S400x3) bitsLt_bf16_f32) := rfl
theorem piece3_1 (v11 : FVec Ideal S400x48 .f32) :
    k0_pay12 v11 = k0_pay9 (extractStridedSlice S400x3 ![0, 3] v11 slices_S400x48_o0_3_S400x3) := rfl
theorem piece64_2 (v11 : FVec Ideal S400x48 .f32) (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32) :
    k0_pay16 v22 v23 v25 v26 (k0_pay14 v11 v16 v19 v20) k0_pay15
      = k0_pay31 v16 v19 v20 v22 v23 v25 v26 (truncf .bf16 (extractStridedSlice S400x3 ![0, 6] v11 slices_S400x48_o0_6_S400x3) bitsLt_bf16_f32) := rfl
theorem piece3_2 (v11 : FVec Ideal S400x48 .f32) :
    k0_pay17 (k0_pay13 v11) = k0_pay9 (extractStridedSlice S400x3 ![0, 6] v11 slices_S400x48_o0_6_S400x3) := rfl
theorem piece64_3 (v11 : FVec Ideal S400x48 .f32) (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32) :
    k0_pay19 v11 v16 v19 v20 v22 v23 v25 v26
      = k0_pay31 v16 v19 v20 v22 v23 v25 v26 (truncf .bf16 (extractStridedSlice S400x3 ![0, 9] v11 slices_S400x48_o0_9_S400x3) bitsLt_bf16_f32) := rfl
theorem piece3_3 (v11 : FVec Ideal S400x48 .f32) :
    k0_pay20 v11 = k0_pay9 (extractStridedSlice S400x3 ![0, 9] v11 slices_S400x48_o0_9_S400x3) := rfl
theorem piece64_4 (v11 : FVec Ideal S400x48 .f32) (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32) :
    k0_pay24 v22 v23 v25 v26 (k0_pay22 v11 v16 v19) (k0_pay23 v20)
      = k0_pay31 v16 v19 v20 v22 v23 v25 v26 (truncf .bf16 (extractStridedSlice S400x3 ![0, 12] v11 slices_S400x48_o0_12_S400x3) bitsLt_bf16_f32) := rfl
theorem piece3_4 (v11 : FVec Ideal S400x48 .f32) :
    k0_pay25 (k0_pay21 v11) = k0_pay9 (extractStridedSlice S400x3 ![0, 12] v11 slices_S400x48_o0_12_S400x3) := rfl
theorem piece64_5 (v11 : FVec Ideal S400x48 .f32) (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32) :
    k0_pay27 v11 v16 v19 v20 v22 v23 v25 v26
      = k0_pay31 v16 v19 v20 v22 v23 v25 v26 (truncf .bf16 (extractStridedSlice S400x3 ![0, 15] v11 slices_S400x48_o0_15_S400x3) bitsLt_bf16_f32) := rfl
theorem piece3_5 (v11 : FVec Ideal S400x48 .f32) :
    k0_pay28 v11 = k0_pay9 (extractStridedSlice S400x3 ![0, 15] v11 slices_S400x48_o0_15_S400x3) := rfl
theorem piece64_6 (v11 : FVec Ideal S400x48 .f32) (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32) :
    k0_pay31 v16 v19 v20 v22 v23 v25 v26 (k0_pay30 v11)
      = k0_pay31 v16 v19 v20 v22 v23 v25 v26 (truncf .bf16 (extractStridedSlice S400x3 ![0, 18] v11 slices_S400x48_o0_18_S400x3) bitsLt_bf16_f32) := rfl
theorem piece3_6 (v11 : FVec Ideal S400x48 .f32) :
    k0_pay32 (k0_pay29 v11) = k0_pay9 (extractStridedSlice S400x3 ![0, 18] v11 slices_S400x48_o0_18_S400x3) := rfl
theorem piece64_7 (v11 : FVec Ideal S400x48 .f32) (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32) :
    k0_pay34 v11 v16 v19 v20 v22 v23 v25 v26
      = k0_pay31 v16 v19 v20 v22 v23 v25 v26 (truncf .bf16 (extractStridedSlice S400x3 ![0, 21] v11 slices_S400x48_o0_21_S400x3) bitsLt_bf16_f32) := rfl
theorem piece3_7 (v11 : FVec Ideal S400x48 .f32) :
    k0_pay35 (k0_pay33 v11) (Scalar.ofBits .f32 0x3E800000#32) = k0_pay9 (extractStridedSlice S400x3 ![0, 21] v11 slices_S400x48_o0_21_S400x3) := rfl
theorem piece64_8 (v11 : FVec Ideal S400x48 .f32) (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32) :
    k0_pay37 v11 v16 v19 v20 v22 v23 v25 v26
      = k0_pay31 v16 v19 v20 v22 v23 v25 v26 (truncf .bf16 (extractStridedSlice S400x3 ![0, 24] v11 slices_S400x48_o0_24_S400x3) bitsLt_bf16_f32) := rfl
theorem piece3_8 (v11 : FVec Ideal S400x48 .f32) :
    k0_pay38 v11 = k0_pay9 (extractStridedSlice S400x3 ![0, 24] v11 slices_S400x48_o0_24_S400x3) := rfl
theorem piece64_9 (v11 : FVec Ideal S400x48 .f32) (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32) :
    k0_pay41 (k0_pay40 v11 v16 v19 v20 v22 v23 v25 v26)
      = k0_pay31 v16 v19 v20 v22 v23 v25 v26 (truncf .bf16 (extractStridedSlice S400x3 ![0, 27] v11 slices_S400x48_o0_27_S400x3) bitsLt_bf16_f32) := rfl
theorem piece3_9 (v11 : FVec Ideal S400x48 .f32) :
    k0_pay42 (k0_pay39 v11) = k0_pay9 (extractStridedSlice S400x3 ![0, 27] v11 slices_S400x48_o0_27_S400x3) := rfl
theorem piece64_10 (v11 : FVec Ideal S400x48 .f32) (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32) :
    k0_pay44 v11 v16 v19 v20 v22 v23 v25 v26
      = k0_pay31 v16 v19 v20 v22 v23 v25 v26 (truncf .bf16 (extractStridedSlice S400x3 ![0, 30] v11 slices_S400x48_o0_30_S400x3) bitsLt_bf16_f32) := rfl
theorem piece3_10 (v11 : FVec Ideal S400x48 .f32) :
    k0_pay45 v11 = k0_pay9 (extractStridedSlice S400x3 ![0, 30] v11 slices_S400x48_o0_30_S400x3) := rfl
theorem piece64_11 (v11 : FVec Ideal S400x48 .f32) (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32) :
    k0_pay48 v25 v26 (k0_pay47 v11 v16 v19 v20 v22 v23) (constant S400x64 .f32 0x00000000#32)
      = k0_pay31 v16 v19 v20 v22 v23 v25 v26 (truncf .bf16 (extractStridedSlice S400x3 ![0, 33] v11 slices_S400x48_o0_33_S400x3) bitsLt_bf16_f32) := rfl
theorem piece3_11 (v11 : FVec Ideal S400x48 .f32) :
    k0_pay49 (k0_pay46 v11) = k0_pay9 (extractStridedSlice S400x3 ![0, 33] v11 slices_S400x48_o0_33_S400x3) := rfl
theorem piece64_12 (v11 : FVec Ideal S400x48 .f32) (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32) :
    k0_pay51 v11 v16 v19 v20 v22 v23 v25 v26
      = k0_pay31 v16 v19 v20 v22 v23 v25 v26 (truncf .bf16 (extractStridedSlice S400x3 ![0, 36] v11 slices_S400x48_o0_36_S400x3) bitsLt_bf16_f32) := rfl
theorem piece3_12 (v11 : FVec Ideal S400x48 .f32) :
    k0_pay52 v11 = k0_pay9 (extractStridedSlice S400x3 ![0, 36] v11 slices_S400x48_o0_36_S400x3) := rfl
theorem piece64_13 (v11 : FVec Ideal S400x48 .f32) (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32) :
    k0_pay55 v25 v26 (k0_pay54 v11 v16 v19 v20 v22 v23) (Scalar.ofBits .f32 0x00000000#32)
      = k0_pay31 v16 v19 v20 v22 v23 v25 v26 (truncf .bf16 (extractStridedSlice S400x3 ![0, 39] v11 slices_S400x48_o0_39_S400x3) bitsLt_bf16_f32) := rfl
theorem piece3_13 (v11 : FVec Ideal S400x48 .f32) :
    k0_pay56 (k0_pay53 v11) = k0_pay9 (extractStridedSlice S400x3 ![0, 39] v11 slices_S400x48_o0_39_S400x3) := rfl
theorem piece64_14 (v11 : FVec Ideal S400x48 .f32) (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32) :
    k0_pay58 v11 v16 v19 v20 v22 v23 v25 v26
      = k0_pay31 v16 v19 v20 v22 v23 v25 v26 (truncf .bf16 (extractStridedSlice S400x3 ![0, 42] v11 slices_S400x48_o0_42_S400x3) bitsLt_bf16_f32) := rfl
theorem piece3_14 (v11 : FVec Ideal S400x48 .f32) :
    k0_pay59 v11 = k0_pay9 (extractStridedSlice S400x3 ![0, 42] v11 slices_S400x48_o0_42_S400x3) := rfl
theorem piece64_15 (v11 : FVec Ideal S400x48 .f32) (v16 : FVec Ideal S400x128 .f32) (v19 : FVec Ideal S3x128 .bf16) (v20 : Vec Ideal S128 .f32)
    (v22 : FVec Ideal S128x128 .bf16) (v23 : Vec Ideal S128 .f32) (v25 : FVec Ideal S128x64 .bf16) (v26 : Vec Ideal S64 .f32) :
    k0_pay55 v25 v26 (addf (k0_pay61 v11 v16 v19 v20 v22) (broadcastTo S400x128 (shapeCast S1x128 v23 shapeCasts_S128_S1x128) broadcasts_S1x128_S400x128)) (Scalar.ofBits .f32 0x00000000#32)
      = k0_pay31 v16 v19 v20 v22 v23 v25 v26 (truncf .bf16 (extractStridedSlice S400x3 ![0, 45] v11 slices_S400x48_o0_45_S400x3) bitsLt_bf16_f32) := rfl
theorem piece3_15 (v11 : FVec Ideal S400x48 .f32) :
    k0_pay9 (k0_pay60 v11) = k0_pay9 (extractStridedSlice S400x3 ![0, 45] v11 slices_S400x48_o0_45_S400x3) := rfl

/-! ## Sixteen pieces stacked along a middle axis and flattened -/

/-- One of sixteen, by number. -/
def pick16 {α : Type} (a0 a1 a2 a3 a4 a5 a6 a7 a8 a9 a10 a11 a12 a13 a14 a15 : α) (k : Fin 16) : α :=
  match k with
  | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7 | ⟨8, _⟩ => a8 | ⟨9, _⟩ => a9 | ⟨10, _⟩ => a10 | ⟨11, _⟩ => a11 | ⟨12, _⟩ => a12 | ⟨13, _⟩ => a13 | ⟨14, _⟩ => a14 | ⟨15, _⟩ => a15
  | ⟨n + 16, h⟩ => absurd h (by omega)

/-- Row 16 p + k of the flattened [400, 16, 64] stack is row p of piece k. -/
theorem stack64_apply (v23 : Vec Ideal S128 .f32) (v25 : FVec Ideal S128x64 .bf16) (v26 : Vec Ideal S64 .f32)
    (v49 v74 v99 v124 v149 v174 v199 v224 v249 v274 v299 v324 v349 v374 v399 : FVec Ideal S400x64 .f32) (v412 : FVec Ideal S400x128 .f32)
    (p : Fin 400) (k : Fin 16) (c : Fin 64) :
    k0_pay62 v23 v25 v26 v49 v74 v99 v124 v149 v174 v199 v224 v249 v274 v299 v324 v349 v374 v399 v412 (ix2 (⟨16 * p.val + k.val, by omega⟩ : Fin 6400) c)
      = pick16 v49 v74 v99 v124 v149 v174 v199 v224 v249 v274 v299 v324 v349 v374 v399 (k0_pay55 v25 v26 (addf v412 (broadcastTo S400x128 (shapeCast S1x128 v23 shapeCasts_S128_S1x128) broadcasts_S1x128_S400x128)) (Scalar.ofBits .f32 0x00000000#32)) k (ix2 p c) := by
  unfold k0_pay62
  refine (shapeCast_apply _ _ _ (ix3 p k c) ?_).trans ?_
  · rw [Shape.rowMajor_val_three, Shape.rowMajor_val_two]
    show (p.val * 16 + k.val) * 64 + c.val = (16 * p.val + k.val) * 64 + c.val
    omega
  refine Eq.trans (concatenate_ofFn_unit_apply (t := S400x16x64) (s₁ := S400x1x64) (1 : Fin 3)
      (fun n : Fin 16 => shapeCast S400x1x64 (pick16 v49 v74 v99 v124 v149 v174 v199 v224 v249 v274 v299 v324 v349 v374 v399 (k0_pay55 v25 v26 (addf v412 (broadcastTo S400x128 (shapeCast S1x128 v23 shapeCasts_S128_S1x128) broadcasts_S1x128_S400x128)) (Scalar.ofBits .f32 0x00000000#32)) n) shapeCasts_S400x64_S400x1x64)
      _ rfl rfl (ix3 p k c) k rfl (ix3 p (0 : Fin 1) c) ?_) ?_
  · intro b hb; match b with
    | ⟨0, _⟩ => rfl
    | ⟨1, _⟩ => exact absurd rfl hb
    | ⟨2, _⟩ => rfl
  · exact shapeCast_apply _ _ _ (ix2 p c) (by rw [Shape.rowMajor_val_three, Shape.rowMajor_val_two]; show p.val * 64 + c.val = (p.val * 1 + 0) * 64 + c.val; omega)

/-- Row 16 p + k of the flattened [400, 16, 3] stack is row p of piece k. -/
theorem stack3_apply (v51 v76 v101 v126 v151 v176 v201 v226 v251 v276 v301 v326 v351 v376 v401 v402 : FVec Ideal S400x3 .f32)
    (p : Fin 400) (k : Fin 16) (c : Fin 3) :
    k0_pay63 v51 v76 v101 v126 v151 v176 v201 v226 v251 v276 v301 v326 v351 v376 v401 v402 (ix2 (⟨16 * p.val + k.val, by omega⟩ : Fin 6400) c)
      = pick16 v51 v76 v101 v126 v151 v176 v201 v226 v251 v276 v301 v326 v351 v376 v401 (k0_pay9 v402) k (ix2 p c) := by
  unfold k0_pay63
  refine (shapeCast_apply _ _ _ (ix3 p k c) ?_).trans ?_
  · rw [Shape.rowMajor_val_three, Shape.rowMajor_val_two]
    show (p.val * 16 + k.val) * 3 + c.val = (16 * p.val + k.val) * 3 + c.val
    omega
  refine Eq.trans (concatenate_ofFn_unit_apply (t := S400x16x3) (s₁ := S400x1x3) (1 : Fin 3)
      (fun n : Fin 16 => shapeCast S400x1x3 (pick16 v51 v76 v101 v126 v151 v176 v201 v226 v251 v276 v301 v326 v351 v376 v401 (k0_pay9 v402) n) shapeCasts_S400x3_S400x1x3)
      _ rfl rfl (ix3 p k c) k rfl (ix3 p (0 : Fin 1) c) ?_) ?_
  · intro b hb; match b with
    | ⟨0, _⟩ => rfl
    | ⟨1, _⟩ => exact absurd rfl hb
    | ⟨2, _⟩ => rfl
  · exact shapeCast_apply _ _ _ (ix2 p c) (by rw [Shape.rowMajor_val_three, Shape.rowMajor_val_two]; show p.val * 3 + c.val = (p.val * 1 + 0) * 3 + c.val; omega)

/-- The wide block from its sixteen pieces: if piece k at (p, c) is M p k c for every k, the flattened stack at
    (16 p + k, c) is M p k c. -/
theorem stack64_of (M : Fin 400 → Fin 16 → Fin 64 → EReal)
    (v23 : Vec Ideal S128 .f32) (v25 : FVec Ideal S128x64 .bf16) (v26 : Vec Ideal S64 .f32)
    (v49 v74 v99 v124 v149 v174 v199 v224 v249 v274 v299 v324 v349 v374 v399 : FVec Ideal S400x64 .f32) (v412 : FVec Ideal S400x128 .f32)
    (h0 : ∀ (p : Fin 400) (c : Fin 64), v49 (ix2 p c) = M p (⟨0, by omega⟩ : Fin 16) c)
    (h1 : ∀ (p : Fin 400) (c : Fin 64), v74 (ix2 p c) = M p (⟨1, by omega⟩ : Fin 16) c)
    (h2 : ∀ (p : Fin 400) (c : Fin 64), v99 (ix2 p c) = M p (⟨2, by omega⟩ : Fin 16) c)
    (h3 : ∀ (p : Fin 400) (c : Fin 64), v124 (ix2 p c) = M p (⟨3, by omega⟩ : Fin 16) c)
    (h4 : ∀ (p : Fin 400) (c : Fin 64), v149 (ix2 p c) = M p (⟨4, by omega⟩ : Fin 16) c)
    (h5 : ∀ (p : Fin 400) (c : Fin 64), v174 (ix2 p c) = M p (⟨5, by omega⟩ : Fin 16) c)
    (h6 : ∀ (p : Fin 400) (c : Fin 64), v199 (ix2 p c) = M p (⟨6, by omega⟩ : Fin 16) c)
    (h7 : ∀ (p : Fin 400) (c : Fin 64), v224 (ix2 p c) = M p (⟨7, by omega⟩ : Fin 16) c)
    (h8 : ∀ (p : Fin 400) (c : Fin 64), v249 (ix2 p c) = M p (⟨8, by omega⟩ : Fin 16) c)
    (h9 : ∀ (p : Fin 400) (c : Fin 64), v274 (ix2 p c) = M p (⟨9, by omega⟩ : Fin 16) c)
    (h10 : ∀ (p : Fin 400) (c : Fin 64), v299 (ix2 p c) = M p (⟨10, by omega⟩ : Fin 16) c)
    (h11 : ∀ (p : Fin 400) (c : Fin 64), v324 (ix2 p c) = M p (⟨11, by omega⟩ : Fin 16) c)
    (h12 : ∀ (p : Fin 400) (c : Fin 64), v349 (ix2 p c) = M p (⟨12, by omega⟩ : Fin 16) c)
    (h13 : ∀ (p : Fin 400) (c : Fin 64), v374 (ix2 p c) = M p (⟨13, by omega⟩ : Fin 16) c)
    (h14 : ∀ (p : Fin 400) (c : Fin 64), v399 (ix2 p c) = M p (⟨14, by omega⟩ : Fin 16) c)
    (h15 : ∀ (p : Fin 400) (c : Fin 64), (k0_pay55 v25 v26 (addf v412 (broadcastTo S400x128 (shapeCast S1x128 v23 shapeCasts_S128_S1x128) broadcasts_S1x128_S400x128)) (Scalar.ofBits .f32 0x00000000#32)) (ix2 p c) = M p (⟨15, by omega⟩ : Fin 16) c)
    (p : Fin 400) (k : Fin 16) (c : Fin 64) :
    k0_pay62 v23 v25 v26 v49 v74 v99 v124 v149 v174 v199 v224 v249 v274 v299 v324 v349 v374 v399 v412 (ix2 (⟨16 * p.val + k.val, by omega⟩ : Fin 6400) c) = M p k c := by
  rw [stack64_apply]
  rcases k with ⟨kv, hk⟩
  interval_cases kv
  · exact h0 p c
  · exact h1 p c
  · exact h2 p c
  · exact h3 p c
  · exact h4 p c
  · exact h5 p c
  · exact h6 p c
  · exact h7 p c
  · exact h8 p c
  · exact h9 p c
  · exact h10 p c
  · exact h11 p c
  · exact h12 p c
  · exact h13 p c
  · exact h14 p c
  · exact h15 p c

/-- The narrow block from its sixteen pieces, likewise. -/
theorem stack3_of (M : Fin 400 → Fin 16 → Fin 3 → EReal)
    (v51 v76 v101 v126 v151 v176 v201 v226 v251 v276 v301 v326 v351 v376 v401 v402 : FVec Ideal S400x3 .f32)
    (h0 : ∀ (p : Fin 400) (d : Fin 3), v51 (ix2 p d) = M p (⟨0, by omega⟩ : Fin 16) d)
    (h1 : ∀ (p : Fin 400) (d : Fin 3), v76 (ix2 p d) = M p (⟨1, by omega⟩ : Fin 16) d)
    (h2 : ∀ (p : Fin 400) (d : Fin 3), v101 (ix2 p d) = M p (⟨2, by omega⟩ : Fin 16) d)
    (h3 : ∀ (p : Fin 400) (d : Fin 3), v126 (ix2 p d) = M p (⟨3, by omega⟩ : Fin 16) d)
    (h4 : ∀ (p : Fin 400) (d : Fin 3), v151 (ix2 p d) = M p (⟨4, by omega⟩ : Fin 16) d)
    (h5 : ∀ (p : Fin 400) (d : Fin 3), v176 (ix2 p d) = M p (⟨5, by omega⟩ : Fin 16) d)
    (h6 : ∀ (p : Fin 400) (d : Fin 3), v201 (ix2 p d) = M p (⟨6, by omega⟩ : Fin 16) d)
    (h7 : ∀ (p : Fin 400) (d : Fin 3), v226 (ix2 p d) = M p (⟨7, by omega⟩ : Fin 16) d)
    (h8 : ∀ (p : Fin 400) (d : Fin 3), v251 (ix2 p d) = M p (⟨8, by omega⟩ : Fin 16) d)
    (h9 : ∀ (p : Fin 400) (d : Fin 3), v276 (ix2 p d) = M p (⟨9, by omega⟩ : Fin 16) d)
    (h10 : ∀ (p : Fin 400) (d : Fin 3), v301 (ix2 p d) = M p (⟨10, by omega⟩ : Fin 16) d)
    (h11 : ∀ (p : Fin 400) (d : Fin 3), v326 (ix2 p d) = M p (⟨11, by omega⟩ : Fin 16) d)
    (h12 : ∀ (p : Fin 400) (d : Fin 3), v351 (ix2 p d) = M p (⟨12, by omega⟩ : Fin 16) d)
    (h13 : ∀ (p : Fin 400) (d : Fin 3), v376 (ix2 p d) = M p (⟨13, by omega⟩ : Fin 16) d)
    (h14 : ∀ (p : Fin 400) (d : Fin 3), v401 (ix2 p d) = M p (⟨14, by omega⟩ : Fin 16) d)
    (h15 : ∀ (p : Fin 400) (d : Fin 3), (k0_pay9 v402) (ix2 p d) = M p (⟨15, by omega⟩ : Fin 16) d)
    (p : Fin 400) (k : Fin 16) (d : Fin 3) :
    k0_pay63 v51 v76 v101 v126 v151 v176 v201 v226 v251 v276 v301 v326 v351 v376 v401 v402 (ix2 (⟨16 * p.val + k.val, by omega⟩ : Fin 6400) d) = M p k d := by
  rw [stack3_apply]
  rcases k with ⟨kv, hk⟩
  interval_cases kv
  · exact h0 p d
  · exact h1 p d
  · exact h2 p d
  · exact h3 p d
  · exact h4 p d
  · exact h5 p d
  · exact h6 p d
  · exact h7 p d
  · exact h8 p d
  · exact h9 p d
  · exact h10 p d
  · exact h11 p d
  · exact h12 p d
  · exact h13 p d
  · exact h14 p d
  · exact h15 p d

/-! ## Each neighbour's piece at an index -/

theorem nb_mlp_0 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 0] (k0_pay1 x0 x1 x2) slices_S400x48_o0_0_S400x3) bitsLt_bf16_f32) (ix2 p c)
      = Spec.mlp (Spec.rowOf x0 p) x1 x2 x3 x4 x5 x6 x7 x8 x9 (⟨0, by omega⟩ : Fin 16) c :=
  nb_mlp x0 x1 x2 x3 x4 x5 x6 x7 x8 x9 (⟨0, by omega⟩ : Fin 16) _ (coordslice_0 x0 x1 x2) p c
theorem nb_offset_0 (x0 : Vec Ideal S400x160 .f32) (x1 : Vec Ideal S32x48 .f32) (x2 : Vec Ideal S48 .f32) (p : Fin 400) (d : Fin 3) :
    k0_pay9 (extractStridedSlice S400x3 ![0, 0] (k0_pay1 x0 x1 x2) slices_S400x48_o0_0_S400x3) (ix2 p d)
      = Spec.offset (Spec.rowOf x0 p) x1 x2 (⟨0, by omega⟩ : Fin 16) d :=
  nb_offset x0 x1 x2 (⟨0, by omega⟩ : Fin 16) _ (coordslice_0 x0 x1 x2) p d
theorem nb_mlp_1 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 3] (k0_pay1 x0 x1 x2) slices_S400x48_o0_3_S400x3) bitsLt_bf16_f32) (ix2 p c)
      = Spec.mlp (Spec.rowOf x0 p) x1 x2 x3 x4 x5 x6 x7 x8 x9 (⟨1, by omega⟩ : Fin 16) c :=
  nb_mlp x0 x1 x2 x3 x4 x5 x6 x7 x8 x9 (⟨1, by omega⟩ : Fin 16) _ (coordslice_1 x0 x1 x2) p c
theorem nb_offset_1 (x0 : Vec Ideal S400x160 .f32) (x1 : Vec Ideal S32x48 .f32) (x2 : Vec Ideal S48 .f32) (p : Fin 400) (d : Fin 3) :
    k0_pay9 (extractStridedSlice S400x3 ![0, 3] (k0_pay1 x0 x1 x2) slices_S400x48_o0_3_S400x3) (ix2 p d)
      = Spec.offset (Spec.rowOf x0 p) x1 x2 (⟨1, by omega⟩ : Fin 16) d :=
  nb_offset x0 x1 x2 (⟨1, by omega⟩ : Fin 16) _ (coordslice_1 x0 x1 x2) p d
theorem nb_mlp_2 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 6] (k0_pay1 x0 x1 x2) slices_S400x48_o0_6_S400x3) bitsLt_bf16_f32) (ix2 p c)
      = Spec.mlp (Spec.rowOf x0 p) x1 x2 x3 x4 x5 x6 x7 x8 x9 (⟨2, by omega⟩ : Fin 16) c :=
  nb_mlp x0 x1 x2 x3 x4 x5 x6 x7 x8 x9 (⟨2, by omega⟩ : Fin 16) _ (coordslice_2 x0 x1 x2) p c
theorem nb_offset_2 (x0 : Vec Ideal S400x160 .f32) (x1 : Vec Ideal S32x48 .f32) (x2 : Vec Ideal S48 .f32) (p : Fin 400) (d : Fin 3) :
    k0_pay9 (extractStridedSlice S400x3 ![0, 6] (k0_pay1 x0 x1 x2) slices_S400x48_o0_6_S400x3) (ix2 p d)
      = Spec.offset (Spec.rowOf x0 p) x1 x2 (⟨2, by omega⟩ : Fin 16) d :=
  nb_offset x0 x1 x2 (⟨2, by omega⟩ : Fin 16) _ (coordslice_2 x0 x1 x2) p d
theorem nb_mlp_3 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 9] (k0_pay1 x0 x1 x2) slices_S400x48_o0_9_S400x3) bitsLt_bf16_f32) (ix2 p c)
      = Spec.mlp (Spec.rowOf x0 p) x1 x2 x3 x4 x5 x6 x7 x8 x9 (⟨3, by omega⟩ : Fin 16) c :=
  nb_mlp x0 x1 x2 x3 x4 x5 x6 x7 x8 x9 (⟨3, by omega⟩ : Fin 16) _ (coordslice_3 x0 x1 x2) p c
theorem nb_offset_3 (x0 : Vec Ideal S400x160 .f32) (x1 : Vec Ideal S32x48 .f32) (x2 : Vec Ideal S48 .f32) (p : Fin 400) (d : Fin 3) :
    k0_pay9 (extractStridedSlice S400x3 ![0, 9] (k0_pay1 x0 x1 x2) slices_S400x48_o0_9_S400x3) (ix2 p d)
      = Spec.offset (Spec.rowOf x0 p) x1 x2 (⟨3, by omega⟩ : Fin 16) d :=
  nb_offset x0 x1 x2 (⟨3, by omega⟩ : Fin 16) _ (coordslice_3 x0 x1 x2) p d
theorem nb_mlp_4 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 12] (k0_pay1 x0 x1 x2) slices_S400x48_o0_12_S400x3) bitsLt_bf16_f32) (ix2 p c)
      = Spec.mlp (Spec.rowOf x0 p) x1 x2 x3 x4 x5 x6 x7 x8 x9 (⟨4, by omega⟩ : Fin 16) c :=
  nb_mlp x0 x1 x2 x3 x4 x5 x6 x7 x8 x9 (⟨4, by omega⟩ : Fin 16) _ (coordslice_4 x0 x1 x2) p c
theorem nb_offset_4 (x0 : Vec Ideal S400x160 .f32) (x1 : Vec Ideal S32x48 .f32) (x2 : Vec Ideal S48 .f32) (p : Fin 400) (d : Fin 3) :
    k0_pay9 (extractStridedSlice S400x3 ![0, 12] (k0_pay1 x0 x1 x2) slices_S400x48_o0_12_S400x3) (ix2 p d)
      = Spec.offset (Spec.rowOf x0 p) x1 x2 (⟨4, by omega⟩ : Fin 16) d :=
  nb_offset x0 x1 x2 (⟨4, by omega⟩ : Fin 16) _ (coordslice_4 x0 x1 x2) p d
theorem nb_mlp_5 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 15] (k0_pay1 x0 x1 x2) slices_S400x48_o0_15_S400x3) bitsLt_bf16_f32) (ix2 p c)
      = Spec.mlp (Spec.rowOf x0 p) x1 x2 x3 x4 x5 x6 x7 x8 x9 (⟨5, by omega⟩ : Fin 16) c :=
  nb_mlp x0 x1 x2 x3 x4 x5 x6 x7 x8 x9 (⟨5, by omega⟩ : Fin 16) _ (coordslice_5 x0 x1 x2) p c
theorem nb_offset_5 (x0 : Vec Ideal S400x160 .f32) (x1 : Vec Ideal S32x48 .f32) (x2 : Vec Ideal S48 .f32) (p : Fin 400) (d : Fin 3) :
    k0_pay9 (extractStridedSlice S400x3 ![0, 15] (k0_pay1 x0 x1 x2) slices_S400x48_o0_15_S400x3) (ix2 p d)
      = Spec.offset (Spec.rowOf x0 p) x1 x2 (⟨5, by omega⟩ : Fin 16) d :=
  nb_offset x0 x1 x2 (⟨5, by omega⟩ : Fin 16) _ (coordslice_5 x0 x1 x2) p d
theorem nb_mlp_6 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 18] (k0_pay1 x0 x1 x2) slices_S400x48_o0_18_S400x3) bitsLt_bf16_f32) (ix2 p c)
      = Spec.mlp (Spec.rowOf x0 p) x1 x2 x3 x4 x5 x6 x7 x8 x9 (⟨6, by omega⟩ : Fin 16) c :=
  nb_mlp x0 x1 x2 x3 x4 x5 x6 x7 x8 x9 (⟨6, by omega⟩ : Fin 16) _ (coordslice_6 x0 x1 x2) p c
theorem nb_offset_6 (x0 : Vec Ideal S400x160 .f32) (x1 : Vec Ideal S32x48 .f32) (x2 : Vec Ideal S48 .f32) (p : Fin 400) (d : Fin 3) :
    k0_pay9 (extractStridedSlice S400x3 ![0, 18] (k0_pay1 x0 x1 x2) slices_S400x48_o0_18_S400x3) (ix2 p d)
      = Spec.offset (Spec.rowOf x0 p) x1 x2 (⟨6, by omega⟩ : Fin 16) d :=
  nb_offset x0 x1 x2 (⟨6, by omega⟩ : Fin 16) _ (coordslice_6 x0 x1 x2) p d
theorem nb_mlp_7 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 21] (k0_pay1 x0 x1 x2) slices_S400x48_o0_21_S400x3) bitsLt_bf16_f32) (ix2 p c)
      = Spec.mlp (Spec.rowOf x0 p) x1 x2 x3 x4 x5 x6 x7 x8 x9 (⟨7, by omega⟩ : Fin 16) c :=
  nb_mlp x0 x1 x2 x3 x4 x5 x6 x7 x8 x9 (⟨7, by omega⟩ : Fin 16) _ (coordslice_7 x0 x1 x2) p c
theorem nb_offset_7 (x0 : Vec Ideal S400x160 .f32) (x1 : Vec Ideal S32x48 .f32) (x2 : Vec Ideal S48 .f32) (p : Fin 400) (d : Fin 3) :
    k0_pay9 (extractStridedSlice S400x3 ![0, 21] (k0_pay1 x0 x1 x2) slices_S400x48_o0_21_S400x3) (ix2 p d)
      = Spec.offset (Spec.rowOf x0 p) x1 x2 (⟨7, by omega⟩ : Fin 16) d :=
  nb_offset x0 x1 x2 (⟨7, by omega⟩ : Fin 16) _ (coordslice_7 x0 x1 x2) p d
theorem nb_mlp_8 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 24] (k0_pay1 x0 x1 x2) slices_S400x48_o0_24_S400x3) bitsLt_bf16_f32) (ix2 p c)
      = Spec.mlp (Spec.rowOf x0 p) x1 x2 x3 x4 x5 x6 x7 x8 x9 (⟨8, by omega⟩ : Fin 16) c :=
  nb_mlp x0 x1 x2 x3 x4 x5 x6 x7 x8 x9 (⟨8, by omega⟩ : Fin 16) _ (coordslice_8 x0 x1 x2) p c
theorem nb_offset_8 (x0 : Vec Ideal S400x160 .f32) (x1 : Vec Ideal S32x48 .f32) (x2 : Vec Ideal S48 .f32) (p : Fin 400) (d : Fin 3) :
    k0_pay9 (extractStridedSlice S400x3 ![0, 24] (k0_pay1 x0 x1 x2) slices_S400x48_o0_24_S400x3) (ix2 p d)
      = Spec.offset (Spec.rowOf x0 p) x1 x2 (⟨8, by omega⟩ : Fin 16) d :=
  nb_offset x0 x1 x2 (⟨8, by omega⟩ : Fin 16) _ (coordslice_8 x0 x1 x2) p d
theorem nb_mlp_9 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 27] (k0_pay1 x0 x1 x2) slices_S400x48_o0_27_S400x3) bitsLt_bf16_f32) (ix2 p c)
      = Spec.mlp (Spec.rowOf x0 p) x1 x2 x3 x4 x5 x6 x7 x8 x9 (⟨9, by omega⟩ : Fin 16) c :=
  nb_mlp x0 x1 x2 x3 x4 x5 x6 x7 x8 x9 (⟨9, by omega⟩ : Fin 16) _ (coordslice_9 x0 x1 x2) p c
theorem nb_offset_9 (x0 : Vec Ideal S400x160 .f32) (x1 : Vec Ideal S32x48 .f32) (x2 : Vec Ideal S48 .f32) (p : Fin 400) (d : Fin 3) :
    k0_pay9 (extractStridedSlice S400x3 ![0, 27] (k0_pay1 x0 x1 x2) slices_S400x48_o0_27_S400x3) (ix2 p d)
      = Spec.offset (Spec.rowOf x0 p) x1 x2 (⟨9, by omega⟩ : Fin 16) d :=
  nb_offset x0 x1 x2 (⟨9, by omega⟩ : Fin 16) _ (coordslice_9 x0 x1 x2) p d
theorem nb_mlp_10 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 30] (k0_pay1 x0 x1 x2) slices_S400x48_o0_30_S400x3) bitsLt_bf16_f32) (ix2 p c)
      = Spec.mlp (Spec.rowOf x0 p) x1 x2 x3 x4 x5 x6 x7 x8 x9 (⟨10, by omega⟩ : Fin 16) c :=
  nb_mlp x0 x1 x2 x3 x4 x5 x6 x7 x8 x9 (⟨10, by omega⟩ : Fin 16) _ (coordslice_10 x0 x1 x2) p c
theorem nb_offset_10 (x0 : Vec Ideal S400x160 .f32) (x1 : Vec Ideal S32x48 .f32) (x2 : Vec Ideal S48 .f32) (p : Fin 400) (d : Fin 3) :
    k0_pay9 (extractStridedSlice S400x3 ![0, 30] (k0_pay1 x0 x1 x2) slices_S400x48_o0_30_S400x3) (ix2 p d)
      = Spec.offset (Spec.rowOf x0 p) x1 x2 (⟨10, by omega⟩ : Fin 16) d :=
  nb_offset x0 x1 x2 (⟨10, by omega⟩ : Fin 16) _ (coordslice_10 x0 x1 x2) p d
theorem nb_mlp_11 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 33] (k0_pay1 x0 x1 x2) slices_S400x48_o0_33_S400x3) bitsLt_bf16_f32) (ix2 p c)
      = Spec.mlp (Spec.rowOf x0 p) x1 x2 x3 x4 x5 x6 x7 x8 x9 (⟨11, by omega⟩ : Fin 16) c :=
  nb_mlp x0 x1 x2 x3 x4 x5 x6 x7 x8 x9 (⟨11, by omega⟩ : Fin 16) _ (coordslice_11 x0 x1 x2) p c
theorem nb_offset_11 (x0 : Vec Ideal S400x160 .f32) (x1 : Vec Ideal S32x48 .f32) (x2 : Vec Ideal S48 .f32) (p : Fin 400) (d : Fin 3) :
    k0_pay9 (extractStridedSlice S400x3 ![0, 33] (k0_pay1 x0 x1 x2) slices_S400x48_o0_33_S400x3) (ix2 p d)
      = Spec.offset (Spec.rowOf x0 p) x1 x2 (⟨11, by omega⟩ : Fin 16) d :=
  nb_offset x0 x1 x2 (⟨11, by omega⟩ : Fin 16) _ (coordslice_11 x0 x1 x2) p d
theorem nb_mlp_12 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 36] (k0_pay1 x0 x1 x2) slices_S400x48_o0_36_S400x3) bitsLt_bf16_f32) (ix2 p c)
      = Spec.mlp (Spec.rowOf x0 p) x1 x2 x3 x4 x5 x6 x7 x8 x9 (⟨12, by omega⟩ : Fin 16) c :=
  nb_mlp x0 x1 x2 x3 x4 x5 x6 x7 x8 x9 (⟨12, by omega⟩ : Fin 16) _ (coordslice_12 x0 x1 x2) p c
theorem nb_offset_12 (x0 : Vec Ideal S400x160 .f32) (x1 : Vec Ideal S32x48 .f32) (x2 : Vec Ideal S48 .f32) (p : Fin 400) (d : Fin 3) :
    k0_pay9 (extractStridedSlice S400x3 ![0, 36] (k0_pay1 x0 x1 x2) slices_S400x48_o0_36_S400x3) (ix2 p d)
      = Spec.offset (Spec.rowOf x0 p) x1 x2 (⟨12, by omega⟩ : Fin 16) d :=
  nb_offset x0 x1 x2 (⟨12, by omega⟩ : Fin 16) _ (coordslice_12 x0 x1 x2) p d
theorem nb_mlp_13 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 39] (k0_pay1 x0 x1 x2) slices_S400x48_o0_39_S400x3) bitsLt_bf16_f32) (ix2 p c)
      = Spec.mlp (Spec.rowOf x0 p) x1 x2 x3 x4 x5 x6 x7 x8 x9 (⟨13, by omega⟩ : Fin 16) c :=
  nb_mlp x0 x1 x2 x3 x4 x5 x6 x7 x8 x9 (⟨13, by omega⟩ : Fin 16) _ (coordslice_13 x0 x1 x2) p c
theorem nb_offset_13 (x0 : Vec Ideal S400x160 .f32) (x1 : Vec Ideal S32x48 .f32) (x2 : Vec Ideal S48 .f32) (p : Fin 400) (d : Fin 3) :
    k0_pay9 (extractStridedSlice S400x3 ![0, 39] (k0_pay1 x0 x1 x2) slices_S400x48_o0_39_S400x3) (ix2 p d)
      = Spec.offset (Spec.rowOf x0 p) x1 x2 (⟨13, by omega⟩ : Fin 16) d :=
  nb_offset x0 x1 x2 (⟨13, by omega⟩ : Fin 16) _ (coordslice_13 x0 x1 x2) p d
theorem nb_mlp_14 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 42] (k0_pay1 x0 x1 x2) slices_S400x48_o0_42_S400x3) bitsLt_bf16_f32) (ix2 p c)
      = Spec.mlp (Spec.rowOf x0 p) x1 x2 x3 x4 x5 x6 x7 x8 x9 (⟨14, by omega⟩ : Fin 16) c :=
  nb_mlp x0 x1 x2 x3 x4 x5 x6 x7 x8 x9 (⟨14, by omega⟩ : Fin 16) _ (coordslice_14 x0 x1 x2) p c
theorem nb_offset_14 (x0 : Vec Ideal S400x160 .f32) (x1 : Vec Ideal S32x48 .f32) (x2 : Vec Ideal S48 .f32) (p : Fin 400) (d : Fin 3) :
    k0_pay9 (extractStridedSlice S400x3 ![0, 42] (k0_pay1 x0 x1 x2) slices_S400x48_o0_42_S400x3) (ix2 p d)
      = Spec.offset (Spec.rowOf x0 p) x1 x2 (⟨14, by omega⟩ : Fin 16) d :=
  nb_offset x0 x1 x2 (⟨14, by omega⟩ : Fin 16) _ (coordslice_14 x0 x1 x2) p d
theorem nb_mlp_15 (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32) (p : Fin 400) (c : Fin 64) :
    k0_pay31 (k0_pay2 x0 x4) (k0_pay3 x3) x5 (k0_pay4 x6) x7 (k0_pay5 x8) x9 (truncf .bf16 (extractStridedSlice S400x3 ![0, 45] (k0_pay1 x0 x1 x2) slices_S400x48_o0_45_S400x3) bitsLt_bf16_f32) (ix2 p c)
      = Spec.mlp (Spec.rowOf x0 p) x1 x2 x3 x4 x5 x6 x7 x8 x9 (⟨15, by omega⟩ : Fin 16) c :=
  nb_mlp x0 x1 x2 x3 x4 x5 x6 x7 x8 x9 (⟨15, by omega⟩ : Fin 16) _ (coordslice_15 x0 x1 x2) p c
theorem nb_offset_15 (x0 : Vec Ideal S400x160 .f32) (x1 : Vec Ideal S32x48 .f32) (x2 : Vec Ideal S48 .f32) (p : Fin 400) (d : Fin 3) :
    k0_pay9 (extractStridedSlice S400x3 ![0, 45] (k0_pay1 x0 x1 x2) slices_S400x48_o0_45_S400x3) (ix2 p d)
      = Spec.offset (Spec.rowOf x0 p) x1 x2 (⟨15, by omega⟩ : Fin 16) d :=
  nb_offset x0 x1 x2 (⟨15, by omega⟩ : Fin 16) _ (coordslice_15 x0 x1 x2) p d

/-! ## The two output blocks at an index -/

set_option maxHeartbeats 4000000 in
/-- Row 16 p + k, column c of the wide output block is neighbour k's 64-vector of point p. -/
theorem out10_apply (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32)
    (p : Fin 400) (k : Fin 16) (c : Fin 64) :
    out0_10 (F := Ideal) x0 x1 x2 x3 x4 x5 x6 x7 x8 x9 (ix2 (⟨16 * p.val + k.val, by omega⟩ : Fin 6400) c)
      = Spec.mlp (Spec.rowOf x0 p) x1 x2 x3 x4 x5 x6 x7 x8 x9 k c := by
  unfold out0_10
  rw [View.canon_unit_zero hz2]
  simp only [View.ld_unit_zero (S := S400x160) hz2, View.ld_unit_zero (S := S32x48) hz2, View.ld_unit_zero (S := S48) hz1, View.ld_unit_zero (S := S3x128) hz2, View.ld_unit_zero (S := S128x128) hz2, View.ld_unit_zero (S := S128) hz1, View.ld_unit_zero (S := S128x64) hz2, View.ld_unit_zero (S := S64) hz1]
  refine stack64_of (fun p k c => Spec.mlp (Spec.rowOf x0 p) x1 x2 x3 x4 x5 x6 x7 x8 x9 k c) _ _ _ _ _ _ _ _ _ _ _ _ _ _ _ _ _ _ _
    ?h0 ?h1 ?h2 ?h3 ?h4 ?h5 ?h6 ?h7 ?h8 ?h9 ?h10 ?h11 ?h12 ?h13 ?h14 ?h15 p k c
  case h0 => intro p c; rw [piece64_0]; exact nb_mlp_0 x0 x1 x2 x3 x4 x5 x6 x7 x8 x9 p c
  case h1 => intro p c; rw [piece64_1]; exact nb_mlp_1 x0 x1 x2 x3 x4 x5 x6 x7 x8 x9 p c
  case h2 => intro p c; rw [piece64_2]; exact nb_mlp_2 x0 x1 x2 x3 x4 x5 x6 x7 x8 x9 p c
  case h3 => intro p c; rw [piece64_3]; exact nb_mlp_3 x0 x1 x2 x3 x4 x5 x6 x7 x8 x9 p c
  case h4 => intro p c; rw [piece64_4]; exact nb_mlp_4 x0 x1 x2 x3 x4 x5 x6 x7 x8 x9 p c
  case h5 => intro p c; rw [piece64_5]; exact nb_mlp_5 x0 x1 x2 x3 x4 x5 x6 x7 x8 x9 p c
  case h6 => intro p c; rw [piece64_6]; exact nb_mlp_6 x0 x1 x2 x3 x4 x5 x6 x7 x8 x9 p c
  case h7 => intro p c; rw [piece64_7]; exact nb_mlp_7 x0 x1 x2 x3 x4 x5 x6 x7 x8 x9 p c
  case h8 => intro p c; rw [piece64_8]; exact nb_mlp_8 x0 x1 x2 x3 x4 x5 x6 x7 x8 x9 p c
  case h9 => intro p c; rw [piece64_9]; exact nb_mlp_9 x0 x1 x2 x3 x4 x5 x6 x7 x8 x9 p c
  case h10 => intro p c; rw [piece64_10]; exact nb_mlp_10 x0 x1 x2 x3 x4 x5 x6 x7 x8 x9 p c
  case h11 => intro p c; rw [piece64_11]; exact nb_mlp_11 x0 x1 x2 x3 x4 x5 x6 x7 x8 x9 p c
  case h12 => intro p c; rw [piece64_12]; exact nb_mlp_12 x0 x1 x2 x3 x4 x5 x6 x7 x8 x9 p c
  case h13 => intro p c; rw [piece64_13]; exact nb_mlp_13 x0 x1 x2 x3 x4 x5 x6 x7 x8 x9 p c
  case h14 => intro p c; rw [piece64_14]; exact nb_mlp_14 x0 x1 x2 x3 x4 x5 x6 x7 x8 x9 p c
  case h15 => intro p c; rw [piece64_15]; exact nb_mlp_15 x0 x1 x2 x3 x4 x5 x6 x7 x8 x9 p c

set_option maxHeartbeats 4000000 in
/-- Row 16 p + k, column d of the narrow output block is coordinate d of neighbour k's offset. -/
theorem out11_apply (x0 : Vec Ideal S400x160 .f32) (x1 : Vec Ideal S32x48 .f32) (x2 : Vec Ideal S48 .f32)
    (x3 : Vec Ideal S3x128 .f32) (x4 : Vec Ideal S128x128 .f32) (x5 : Vec Ideal S128 .f32)
    (x6 : Vec Ideal S128x128 .f32) (x7 : Vec Ideal S128 .f32) (x8 : Vec Ideal S128x64 .f32) (x9 : Vec Ideal S64 .f32)
    (p : Fin 400) (k : Fin 16) (d : Fin 3) :
    out0_11 (F := Ideal) x0 x1 x2 x3 x4 x5 x6 x7 x8 x9 (ix2 (⟨16 * p.val + k.val, by omega⟩ : Fin 6400) d)
      = Spec.offset (Spec.rowOf x0 p) x1 x2 k d := by
  unfold out0_11
  rw [View.canon_unit_zero hz2]
  simp only [View.ld_unit_zero (S := S400x160) hz2, View.ld_unit_zero (S := S32x48) hz2, View.ld_unit_zero (S := S48) hz1, View.ld_unit_zero (S := S3x128) hz2, View.ld_unit_zero (S := S128x128) hz2, View.ld_unit_zero (S := S128) hz1, View.ld_unit_zero (S := S128x64) hz2, View.ld_unit_zero (S := S64) hz1]
  refine stack3_of (fun p k d => Spec.offset (Spec.rowOf x0 p) x1 x2 k d) _ _ _ _ _ _ _ _ _ _ _ _ _ _ _ _
    ?h0 ?h1 ?h2 ?h3 ?h4 ?h5 ?h6 ?h7 ?h8 ?h9 ?h10 ?h11 ?h12 ?h13 ?h14 ?h15 p k d
  case h0 => intro p d; rw [piece3_0]; exact nb_offset_0 x0 x1 x2 p d
  case h1 => intro p d; rw [piece3_1]; exact nb_offset_1 x0 x1 x2 p d
  case h2 => intro p d; rw [piece3_2]; exact nb_offset_2 x0 x1 x2 p d
  case h3 => intro p d; rw [piece3_3]; exact nb_offset_3 x0 x1 x2 p d
  case h4 => intro p d; rw [piece3_4]; exact nb_offset_4 x0 x1 x2 p d
  case h5 => intro p d; rw [piece3_5]; exact nb_offset_5 x0 x1 x2 p d
  case h6 => intro p d; rw [piece3_6]; exact nb_offset_6 x0 x1 x2 p d
  case h7 => intro p d; rw [piece3_7]; exact nb_offset_7 x0 x1 x2 p d
  case h8 => intro p d; rw [piece3_8]; exact nb_offset_8 x0 x1 x2 p d
  case h9 => intro p d; rw [piece3_9]; exact nb_offset_9 x0 x1 x2 p d
  case h10 => intro p d; rw [piece3_10]; exact nb_offset_10 x0 x1 x2 p d
  case h11 => intro p d; rw [piece3_11]; exact nb_offset_11 x0 x1 x2 p d
  case h12 => intro p d; rw [piece3_12]; exact nb_offset_12 x0 x1 x2 p d
  case h13 => intro p d; rw [piece3_13]; exact nb_offset_13 x0 x1 x2 p d
  case h14 => intro p d; rw [piece3_14]; exact nb_offset_14 x0 x1 x2 p d
  case h15 => intro p d; rw [piece3_15]; exact nb_offset_15 x0 x1 x2 p d

end Cert.KernelBlock

end
-- ==== Proof.SpecBlocks.lean ====
/-
  The whole results, cut into the blocks of the grid steps.

  Step t handles points 400 t .. 400 t + 399 and writes output rows 6400 t .. 6400 t + 6399.
  Output row 6400 t + q belongs to point (6400 t + q) / 16 = 400 t + q / 16, which is point q / 16 of
  the step, and to neighbour (6400 t + q) % 16 = q % 16.
-/
import proofs.«176419_j4294967296690_1_alg».proof.Proof.Spec

noncomputable section

namespace Cert.Spec

open Idealize.ShloMosaic Idealize.ShloMosaic.ValueIdx

/-- Row 6400 t + q of the wide result, from the step's own 400 feature rows. -/
theorem resultMlp_block (x : Mat 50000 160) (Wn : Mat 32 48) (bn : Vc 48) (W1 : Mat 131 128) (b1 : Vc 128)
    (W2 : Mat 128 128) (b2 : Vc 128) (W3 : Mat 128 64) (b3 : Vc 64) (xb : Mat 400 160) (t : Fin 125)
    (hxb : ∀ (p : Fin 400) (a : Fin 160), xb (ix2 p a) = x (ix2 (⟨400 * t.val + p.val, by omega⟩ : Fin 50000) a))
    (q : Fin 6400) (c : Fin 64) :
    resultMlp x Wn bn W1 b1 W2 b2 W3 b3 (ix2 (⟨6400 * t.val + q.val, by omega⟩ : Fin 800000) c)
      = mlp (rowOf xb ⟨q.val / 16, by omega⟩) Wn bn (topRows W1) (restRows W1) b1 W2 b2 W3 b3 ⟨q.val % 16, by omega⟩ c := by
  show mlp (rowOf x (⟨(6400 * t.val + q.val) / 16, by omega⟩ : Fin 50000)) Wn bn (topRows W1) (restRows W1) b1 W2 b2 W3 b3
      (⟨(6400 * t.val + q.val) % 16, by omega⟩ : Fin 16) (⟨c.val, c.isLt⟩ : Fin 64) = _
  have e1 : (⟨(6400 * t.val + q.val) % 16, by omega⟩ : Fin 16) = ⟨q.val % 16, by omega⟩ :=
    Fin.ext (by show (6400 * t.val + q.val) % 16 = q.val % 16; omega)
  have e2 : rowOf x (⟨(6400 * t.val + q.val) / 16, by omega⟩ : Fin 50000) = rowOf xb ⟨q.val / 16, by omega⟩ :=
    funext fun a => by
      unfold rowOf
      rw [hxb]
      exact congrArg (fun z => x (ix2 z a)) (Fin.ext (by show (6400 * t.val + q.val) / 16 = 400 * t.val + q.val / 16; omega))
  rw [e1, e2]

/-- Row 6400 t + q of the narrow result, likewise. -/
theorem resultOffset_block (x : Mat 50000 160) (Wn : Mat 32 48) (bn : Vc 48) (xb : Mat 400 160) (t : Fin 125)
    (hxb : ∀ (p : Fin 400) (a : Fin 160), xb (ix2 p a) = x (ix2 (⟨400 * t.val + p.val, by omega⟩ : Fin 50000) a))
    (q : Fin 6400) (d : Fin 3) :
    resultOffset x Wn bn (ix2 (⟨6400 * t.val + q.val, by omega⟩ : Fin 800000) d)
      = offset (rowOf xb ⟨q.val / 16, by omega⟩) Wn bn ⟨q.val % 16, by omega⟩ d := by
  show offset (rowOf x (⟨(6400 * t.val + q.val) / 16, by omega⟩ : Fin 50000)) Wn bn
      (⟨(6400 * t.val + q.val) % 16, by omega⟩ : Fin 16) (⟨d.val, d.isLt⟩ : Fin 3) = _
  have e1 : (⟨(6400 * t.val + q.val) % 16, by omega⟩ : Fin 16) = ⟨q.val % 16, by omega⟩ :=
    Fin.ext (by show (6400 * t.val + q.val) % 16 = q.val % 16; omega)
  have e2 : rowOf x (⟨(6400 * t.val + q.val) / 16, by omega⟩ : Fin 50000) = rowOf xb ⟨q.val / 16, by omega⟩ :=
    funext fun a => by
      unfold rowOf
      rw [hxb]
      exact congrArg (fun z => x (ix2 z a)) (Fin.ext (by show (6400 * t.val + q.val) / 16 = 400 * t.val + q.val / 16; omega))
  rw [e1, e2]

end Cert.Spec

end
-- ==== Proof.KernelValue.lean ====
/-
  The kernel program's results as functions of its arguments.

  The feature array is cut into 125 blocks of 400 rows; step t reads block t and the whole of
  every weight and bias array, and writes block t (6400 rows) of each of the two float results.
  The host lines before the region cut the 131-row weight matrix into its top three rows and the
  rest; the host lines after it build the integer result, which depends on no input.  What step t
  writes is block t of one whole-array function of the arguments, and the 125 blocks tile the
  results, so after the run each result holds that function.
-/
import proofs.«176419_j4294967296690_1_alg».proof.Proof.Gen.KernelIdeal.Frame
import proofs.«176419_j4294967296690_1_alg».proof.Proof.KernelBlock
import proofs.«176419_j4294967296690_1_alg».proof.Proof.SpecBlocks
import Idealize.ShloMosaic.Lib.Pipeline.Value
import Idealize.ShloMosaic.Lib.ValueIdx
import Idealize.ShloMosaic.Lib.StableHlo.Run

set_option maxRecDepth 16384

noncomputable section

namespace Cert.KernelValue

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-! ## Where each window's block sits in its array -/

/-- The printed index maps over the grid: the feature window and the two output windows move one block
    per step along the rows; every other window stays at block (0, 0). -/
theorem idx_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = t.val
    ∧ win0_10.index t (1 : Fin 2) = 0
    ∧ win0_11.index t (0 : Fin 2) = t.val
    ∧ win0_11.index t (1 : Fin 2) = 0 :=
  (by decide +kernel : ∀ t : Fin grid0.N, _)

/-- Row p of step t's feature block is row 400 t + p of the feature array. -/
theorem blk0_apply (c : Dev nD) (t : Fin cfg0.N) (ht : t.val < 125) (p : Fin 400) (a : Fin 160) :
    (iblk m c 0 t : Vec Ideal S400x160 .f32) (ix2 p a)
      = (V m c main_arg0 : Vec Ideal S50000x160 .f32) (ix2 (⟨400 * t.val + p.val, by omega⟩ : Fin 50000) a) := by
  obtain ⟨i0_0, i0_1, i1_0, i1_1, i2_0, i3_0, i3_1, i4_0, i4_1, i5_0, i6_0, i6_1, i7_0, i8_0, i8_1, i9_0, i10_0, i10_1, i11_0, i11_1⟩ := idx_facts t
  show V m c main_arg0 (((cfg0.win 0).blk t).view.emb (ix2 p a)) = _
  refine congrArg (V m c main_arg0) (funext fun b => Fin.ext ?_)
  match b with
  | ⟨0, _⟩ => show win0_0.index t (0 : Fin 2) * 400 + 1 * p.val = 400 * t.val + p.val; omega
  | ⟨1, _⟩ => show win0_0.index t (1 : Fin 2) * 160 + 1 * a.val = a.val; omega

/-! Every other input window holds its whole array at every step. -/
theorem blk1_eq (c : Dev nD) (t : Fin cfg0.N) : (iblk m c 1 t : Vec Ideal S32x48 .f32) = V m c main_arg1 := by
  obtain ⟨i0_0, i0_1, i1_0, i1_1, i2_0, i3_0, i3_1, i4_0, i4_1, i5_0, i6_0, i6_1, i7_0, i8_0, i8_1, i9_0, i10_0, i10_1, i11_0, i11_1⟩ := idx_facts t
  funext y
  show V m c main_arg1 (((cfg0.win 1).blk t).view.emb y) = V m c main_arg1 y
  refine congrArg (V m c main_arg1) (funext fun b => Fin.ext ?_)
  match b with
  | ⟨0, _⟩ => show win0_1.index t (0 : Fin 2) * 32 + 1 * (y 0).val = (y 0).val; omega
  | ⟨1, _⟩ => show win0_1.index t (1 : Fin 2) * 48 + 1 * (y 1).val = (y 1).val; omega

theorem blk2_eq (c : Dev nD) (t : Fin cfg0.N) : (iblk m c 2 t : Vec Ideal S48 .f32) = V m c main_arg2 := by
  obtain ⟨i0_0, i0_1, i1_0, i1_1, i2_0, i3_0, i3_1, i4_0, i4_1, i5_0, i6_0, i6_1, i7_0, i8_0, i8_1, i9_0, i10_0, i10_1, i11_0, i11_1⟩ := idx_facts t
  funext y
  show V m c main_arg2 (((cfg0.win 2).blk t).view.emb y) = V m c main_arg2 y
  refine congrArg (V m c main_arg2) (funext fun b => Fin.ext ?_)
  match b with
  | ⟨0, _⟩ => show win0_2.index t (0 : Fin 1) * 48 + 1 * (y 0).val = (y 0).val; omega

theorem blk3_eq (c : Dev nD) (t : Fin cfg0.N) : (iblk m c 3 t : Vec Ideal S3x128 .f32) = V m c main_v0 := by
  obtain ⟨i0_0, i0_1, i1_0, i1_1, i2_0, i3_0, i3_1, i4_0, i4_1, i5_0, i6_0, i6_1, i7_0, i8_0, i8_1, i9_0, i10_0, i10_1, i11_0, i11_1⟩ := idx_facts t
  funext y
  show V m c main_v0 (((cfg0.win 3).blk t).view.emb y) = V m c main_v0 y
  refine congrArg (V m c main_v0) (funext fun b => Fin.ext ?_)
  match b with
  | ⟨0, _⟩ => show win0_3.index t (0 : Fin 2) * 3 + 1 * (y 0).val = (y 0).val; omega
  | ⟨1, _⟩ => show win0_3.index t (1 : Fin 2) * 128 + 1 * (y 1).val = (y 1).val; omega

theorem blk4_eq (c : Dev nD) (t : Fin cfg0.N) : (iblk m c 4 t : Vec Ideal S128x128 .f32) = V m c main_v1 := by
  obtain ⟨i0_0, i0_1, i1_0, i1_1, i2_0, i3_0, i3_1, i4_0, i4_1, i5_0, i6_0, i6_1, i7_0, i8_0, i8_1, i9_0, i10_0, i10_1, i11_0, i11_1⟩ := idx_facts t
  funext y
  show V m c main_v1 (((cfg0.win 4).blk t).view.emb y) = V m c main_v1 y
  refine congrArg (V m c main_v1) (funext fun b => Fin.ext ?_)
  match b with
  | ⟨0, _⟩ => show win0_4.index t (0 : Fin 2) * 128 + 1 * (y 0).val = (y 0).val; omega
  | ⟨1, _⟩ => show win0_4.index t (1 : Fin 2) * 128 + 1 * (y 1).val = (y 1).val; omega

theorem blk5_eq (c : Dev nD) (t : Fin cfg0.N) : (iblk m c 5 t : Vec Ideal S128 .f32) = V m c main_arg4 := by
  obtain ⟨i0_0, i0_1, i1_0, i1_1, i2_0, i3_0, i3_1, i4_0, i4_1, i5_0, i6_0, i6_1, i7_0, i8_0, i8_1, i9_0, i10_0, i10_1, i11_0, i11_1⟩ := idx_facts t
  funext y
  show V m c main_arg4 (((cfg0.win 5).blk t).view.emb y) = V m c main_arg4 y
  refine congrArg (V m c main_arg4) (funext fun b => Fin.ext ?_)
  match b with
  | ⟨0, _⟩ => show win0_5.index t (0 : Fin 1) * 128 + 1 * (y 0).val = (y 0).val; omega

theorem blk6_eq (c : Dev nD) (t : Fin cfg0.N) : (iblk m c 6 t : Vec Ideal S128x128 .f32) = V m c main_arg5 := by
  obtain ⟨i0_0, i0_1, i1_0, i1_1, i2_0, i3_0, i3_1, i4_0, i4_1, i5_0, i6_0, i6_1, i7_0, i8_0, i8_1, i9_0, i10_0, i10_1, i11_0, i11_1⟩ := idx_facts t
  funext y
  show V m c main_arg5 (((cfg0.win 6).blk t).view.emb y) = V m c main_arg5 y
  refine congrArg (V m c main_arg5) (funext fun b => Fin.ext ?_)
  match b with
  | ⟨0, _⟩ => show win0_6.index t (0 : Fin 2) * 128 + 1 * (y 0).val = (y 0).val; omega
  | ⟨1, _⟩ => show win0_6.index t (1 : Fin 2) * 128 + 1 * (y 1).val = (y 1).val; omega

theorem blk7_eq (c : Dev nD) (t : Fin cfg0.N) : (iblk m c 7 t : Vec Ideal S128 .f32) = V m c main_arg6 := by
  obtain ⟨i0_0, i0_1, i1_0, i1_1, i2_0, i3_0, i3_1, i4_0, i4_1, i5_0, i6_0, i6_1, i7_0, i8_0, i8_1, i9_0, i10_0, i10_1, i11_0, i11_1⟩ := idx_facts t
  funext y
  show V m c main_arg6 (((cfg0.win 7).blk t).view.emb y) = V m c main_arg6 y
  refine congrArg (V m c main_arg6) (funext fun b => Fin.ext ?_)
  match b with
  | ⟨0, _⟩ => show win0_7.index t (0 : Fin 1) * 128 + 1 * (y 0).val = (y 0).val; omega

theorem blk8_eq (c : Dev nD) (t : Fin cfg0.N) : (iblk m c 8 t : Vec Ideal S128x64 .f32) = V m c main_arg7 := by
  obtain ⟨i0_0, i0_1, i1_0, i1_1, i2_0, i3_0, i3_1, i4_0, i4_1, i5_0, i6_0, i6_1, i7_0, i8_0, i8_1, i9_0, i10_0, i10_1, i11_0, i11_1⟩ := idx_facts t
  funext y
  show V m c main_arg7 (((cfg0.win 8).blk t).view.emb y) = V m c main_arg7 y
  refine congrArg (V m c main_arg7) (funext fun b => Fin.ext ?_)
  match b with
  | ⟨0, _⟩ => show win0_8.index t (0 : Fin 2) * 128 + 1 * (y 0).val = (y 0).val; omega
  | ⟨1, _⟩ => show win0_8.index t (1 : Fin 2) * 64 + 1 * (y 1).val = (y 1).val; omega

theorem blk9_eq (c : Dev nD) (t : Fin cfg0.N) : (iblk m c 9 t : Vec Ideal S64 .f32) = V m c main_arg8 := by
  obtain ⟨i0_0, i0_1, i1_0, i1_1, i2_0, i3_0, i3_1, i4_0, i4_1, i5_0, i6_0, i6_1, i7_0, i8_0, i8_1, i9_0, i10_0, i10_1, i11_0, i11_1⟩ := idx_facts t
  funext y
  show V m c main_arg8 (((cfg0.win 9).blk t).view.emb y) = V m c main_arg8 y
  refine congrArg (V m c main_arg8) (funext fun b => Fin.ext ?_)
  match b with
  | ⟨0, _⟩ => show win0_9.index t (0 : Fin 1) * 64 + 1 * (y 0).val = (y 0).val; omega

/-! ## The host lines before the region: the weight matrix cut in two -/

theorem V_top (c : Dev nD) : (V m c main_v0 : Vec Ideal S3x128 .f32) = Spec.topRows (m ((c : Thread nD τ).loc main_arg3)) := by
  have e : (V m c main_v0 : S3x128.Idx → EReal)
      = extractStridedSlice S3x128 ![0, 0] (m ((c : Thread nD τ).loc main_arg3)) slices_S131x128_S3x128_0_0 := by
    show StableHlo.after hostOps0 (fun b => m (c, b)) (Proc.devRef .tc main_v0) = _
    after_results
  rw [e]
  funext i
  unfold Spec.topRows
  exact extractStridedSlice_apply _ _ _ i _ (fun a => by
    match a with
    | ⟨0, _⟩ => show (i 0).val = 0 + (i 0).val; omega
    | ⟨1, _⟩ => show (i 1).val = 0 + (i 1).val; omega)

theorem V_rest (c : Dev nD) : (V m c main_v1 : Vec Ideal S128x128 .f32) = Spec.restRows (m ((c : Thread nD τ).loc main_arg3)) := by
  have e : (V m c main_v1 : S128x128.Idx → EReal)
      = extractStridedSlice S128x128 ![3, 0] (m ((c : Thread nD τ).loc main_arg3)) slices_S131x128_S128x128_3_0 := by
    show StableHlo.after hostOps0 (fun b => m (c, b)) (Proc.devRef .tc main_v1) = _
    after_results
  rw [e]
  funext i
  unfold Spec.restRows
  exact extractStridedSlice_apply _ _ _ i _ (fun a => by
    match a with
    | ⟨0, _⟩ => show 3 + (i 0).val = 3 + (i 0).val; rfl
    | ⟨1, _⟩ => show (i 1).val = 0 + (i 1).val; omega)

/-! ## What each step writes back -/

/-- The two float results as functions of the argument arrays. -/
def wide (c : Dev nD) : S800000x64.Idx → Elt Ideal .f32 :=
  Spec.resultMlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
def narrow (c : Dev nD) : S800000x3.Idx → Elt Ideal .f32 :=
  Spec.resultOffset (m ((c : Thread nD τ).loc main_arg0)) (m ((c : Thread nD τ).loc main_arg1)) (m ((c : Thread nD τ).loc main_arg2))

theorem flushed10_eq (c : Dev nD) (t : Fin cfg0.N) :
    (dats m 0 c).flushed 10 t = ((cfg0.win 10).blk t).view.read (Elt Ideal) (wide m c) := by
  show (cfg0.win 10).cut (grid0.coords t) ((dats m 0 c).after 10 t) = _
  rw [after0_10]
  obtain ⟨i0_0, i0_1, i1_0, i1_1, i2_0, i3_0, i3_1, i4_0, i4_1, i5_0, i6_0, i6_1, i7_0, i8_0, i8_1, i9_0, i10_0, i10_1, i11_0, i11_1⟩ := idx_facts t
  have ht : t.val < 125 := lt_of_lt_of_eq t.isLt N_0
  funext j
  obtain ⟨q, c', rfl⟩ : ∃ (q : Fin 6400) (c' : Fin 64), j = ix2 q c' := ⟨j 0, j 1, eq_ix2 j⟩
  show out0_10 (iblk m c 0 t) (iblk m c 1 t) (iblk m c 2 t) (iblk m c 3 t) (iblk m c 4 t) (iblk m c 5 t) (iblk m c 6 t) (iblk m c 7 t) (iblk m c 8 t) (iblk m c 9 t) (ix2 q c')
    = wide m c (((cfg0.win 10).blk t).view.emb (ix2 q c'))
  have hemb : ((cfg0.win 10).blk t).view.emb (ix2 q c') = ix2 (⟨6400 * t.val + q.val, by omega⟩ : Fin 800000) c' :=
    funext fun a => Fin.ext (by
      match a with
      | ⟨0, _⟩ => show win0_10.index t (0 : Fin 2) * 6400 + 1 * q.val = 6400 * t.val + q.val; omega
      | ⟨1, _⟩ => show win0_10.index t (1 : Fin 2) * 64 + 1 * c'.val = c'.val; omega)
  have hq : (ix2 q c' : S6400x64.Idx) = ix2 (⟨16 * (q.val / 16) + q.val % 16, by omega⟩ : Fin 6400) c' :=
    congrArg (fun z => ix2 z c') (Fin.ext (by show q.val = 16 * (q.val / 16) + q.val % 16; omega))
  rw [hemb, hq, KernelBlock.out10_apply _ _ _ _ _ _ _ _ _ _ ⟨q.val / 16, by omega⟩ ⟨q.val % 16, by omega⟩ c']
  unfold wide
  rw [Spec.resultMlp_block _ _ _ _ _ _ _ _ _ (iblk m c 0 t) ⟨t.val, ht⟩
    (fun p a => (blk0_apply m c t ht p a).trans (congrFun (V_main_arg0 m c) _)) q c']
  rw [blk1_eq, blk2_eq, blk3_eq, blk4_eq, blk5_eq, blk6_eq, blk7_eq, blk8_eq, blk9_eq, V_top, V_rest,
    V_main_arg1, V_main_arg2, V_main_arg4, V_main_arg5, V_main_arg6, V_main_arg7, V_main_arg8]

theorem flushed11_eq (c : Dev nD) (t : Fin cfg0.N) :
    (dats m 0 c).flushed 11 t = ((cfg0.win 11).blk t).view.read (Elt Ideal) (narrow m c) := by
  show (cfg0.win 11).cut (grid0.coords t) ((dats m 0 c).after 11 t) = _
  rw [after0_11]
  obtain ⟨i0_0, i0_1, i1_0, i1_1, i2_0, i3_0, i3_1, i4_0, i4_1, i5_0, i6_0, i6_1, i7_0, i8_0, i8_1, i9_0, i10_0, i10_1, i11_0, i11_1⟩ := idx_facts t
  have ht : t.val < 125 := lt_of_lt_of_eq t.isLt N_0
  funext j
  obtain ⟨q, d, rfl⟩ : ∃ (q : Fin 6400) (d : Fin 3), j = ix2 q d := ⟨j 0, j 1, eq_ix2 j⟩
  show out0_11 (iblk m c 0 t) (iblk m c 1 t) (iblk m c 2 t) (iblk m c 3 t) (iblk m c 4 t) (iblk m c 5 t) (iblk m c 6 t) (iblk m c 7 t) (iblk m c 8 t) (iblk m c 9 t) (ix2 q d)
    = narrow m c (((cfg0.win 11).blk t).view.emb (ix2 q d))
  have hemb : ((cfg0.win 11).blk t).view.emb (ix2 q d) = ix2 (⟨6400 * t.val + q.val, by omega⟩ : Fin 800000) d :=
    funext fun a => Fin.ext (by
      match a with
      | ⟨0, _⟩ => show win0_11.index t (0 : Fin 2) * 6400 + 1 * q.val = 6400 * t.val + q.val; omega
      | ⟨1, _⟩ => show win0_11.index t (1 : Fin 2) * 3 + 1 * d.val = d.val; omega)
  have hq : (ix2 q d : S6400x3.Idx) = ix2 (⟨16 * (q.val / 16) + q.val % 16, by omega⟩ : Fin 6400) d :=
    congrArg (fun z => ix2 z d) (Fin.ext (by show q.val = 16 * (q.val / 16) + q.val % 16; omega))
  rw [hemb, hq, KernelBlock.out11_apply _ _ _ _ _ _ _ _ _ _ ⟨q.val / 16, by omega⟩ ⟨q.val % 16, by omega⟩ d]
  unfold narrow
  rw [Spec.resultOffset_block _ _ _ (iblk m c 0 t) ⟨t.val, ht⟩
    (fun p a => (blk0_apply m c t ht p a).trans (congrFun (V_main_arg0 m c) _)) q d]
  rw [blk1_eq, blk2_eq, V_main_arg1, V_main_arg2]

/-! ## The output blocks tile their arrays -/

theorem mem_blk10 (t : Fin cfg0.N) (i : S800000x64.Idx) :
    i ∈ ((cfg0.win 10).blk t).view.set ↔ ∀ a : Fin 2, win0_10.index t a * S6400x64.size a ≤ (i a).val ∧ (i a).val < win0_10.index t a * S6400x64.size a + S6400x64.size a := by
  show i ∈ ((View.whole main_v2_0).slice (win0_10.rect t)).set ↔ _
  rw [View.set_slice_whole, Rect.mem_set_unit]
  exact Iff.rfl

theorem mem_blk11 (t : Fin cfg0.N) (i : S800000x3.Idx) :
    i ∈ ((cfg0.win 11).blk t).view.set ↔ ∀ a : Fin 2, win0_11.index t a * S6400x3.size a ≤ (i a).val ∧ (i a).val < win0_11.index t a * S6400x3.size a + S6400x3.size a := by
  show i ∈ ((View.whole main_v2_1).slice (win0_11.rect t)).set ↔ _
  rw [View.set_slice_whole, Rect.mem_set_unit]
  exact Iff.rfl

/-- Row r of the wide array is in the block of step r / 6400. -/
theorem cover10 (i : S800000x64.Idx) : ∃ t : Fin cfg0.N, (cfg0.win 10).flush t = true ∧ i ∈ ((cfg0.win 10).blk t).view.set := by
  have h0 : (i 0).val < 800000 := (i 0).isLt
  have h1 : (i 1).val < 64 := (i 1).isLt
  let t : Fin cfg0.N := ⟨(i 0).val / 6400, by rw [show cfg0.N = 125 from N_0]; omega⟩
  obtain ⟨i0_0, i0_1, i1_0, i1_1, i2_0, i3_0, i3_1, i4_0, i4_1, i5_0, i6_0, i6_1, i7_0, i8_0, i8_1, i9_0, i10_0, i10_1, i11_0, i11_1⟩ := idx_facts t
  have ht : t.val = (i 0).val / 6400 := rfl
  refine ⟨t, flush0_10 t, ?_⟩
  rw [mem_blk10]
  intro a
  match a with
  | ⟨0, _⟩ => show win0_10.index t (0 : Fin 2) * 6400 ≤ (i 0).val ∧ (i 0).val < win0_10.index t (0 : Fin 2) * 6400 + 6400; omega
  | ⟨1, _⟩ => show win0_10.index t (1 : Fin 2) * 64 ≤ (i 1).val ∧ (i 1).val < win0_10.index t (1 : Fin 2) * 64 + 64; omega

theorem cover11 (i : S800000x3.Idx) : ∃ t : Fin cfg0.N, (cfg0.win 11).flush t = true ∧ i ∈ ((cfg0.win 11).blk t).view.set := by
  have h0 : (i 0).val < 800000 := (i 0).isLt
  have h1 : (i 1).val < 3 := (i 1).isLt
  let t : Fin cfg0.N := ⟨(i 0).val / 6400, by rw [show cfg0.N = 125 from N_0]; omega⟩
  obtain ⟨i0_0, i0_1, i1_0, i1_1, i2_0, i3_0, i3_1, i4_0, i4_1, i5_0, i6_0, i6_1, i7_0, i8_0, i8_1, i9_0, i10_0, i10_1, i11_0, i11_1⟩ := idx_facts t
  have ht : t.val = (i 0).val / 6400 := rfl
  refine ⟨t, flush0_11 t, ?_⟩
  rw [mem_blk11]
  intro a
  match a with
  | ⟨0, _⟩ => show win0_11.index t (0 : Fin 2) * 6400 ≤ (i 0).val ∧ (i 0).val < win0_11.index t (0 : Fin 2) * 6400 + 6400; omega
  | ⟨1, _⟩ => show win0_11.index t (1 : Fin 2) * 3 ≤ (i 1).val ∧ (i 1).val < win0_11.index t (1 : Fin 2) * 3 + 3; omega

/-! ## The arrays after the run -/

theorem final10 (c : Dev nD) : (dats m 0 c).arrAt 10 cfg0.N = wide m c :=
  (dats m 0 c).arrAt_eq_of_cover 10 (wide m c) (fun t _ => flushed10_eq m c t) cover10

theorem final11 (c : Dev nD) : (dats m 0 c).arrAt 11 cfg0.N = narrow m c :=
  (dats m 0 c).arrAt_eq_of_cover 11 (narrow m c) (fun t _ => flushed11_eq m c t) cover11

/-- The integer result: each point's number, repeated 16 times. It depends on no input. -/
def ids : S800000.Idx → Elt Ideal .i32 :=
  shapeCast S800000 (broadcastInDim S50000x16 ![0] bcast_S50000_S50000x16_0 (iotaInDim S50000 32 0)) shapeCasts_S50000x16_S800000

theorem tail_ids (c : Dev nD) : Pipeline.afterTail₀ cfgs (dats m) 0 (V0 m) [hostOps1] c main_v5 = ids := by
  unfold Pipeline.afterTail₀
  show StableHlo.after hostOps1 _ (Proc.devRef .tc main_v5) = _
  after_results
  rfl

/-! ## The run, read -/

theorem run : θ_run defs (onTc (τ := τ) (main (F := Ideal))) ⟨m, fun _ => 0, ρ⟩ (fun r => ∀ c : Dev nD,
      r.2.mem ((c.tc : Thread nD τ).loc main_v2_1) = narrow m c
      ∧ r.2.mem ((c.tc : Thread nD τ).loc main_v2_0) = wide m c
      ∧ r.2.mem ((c.tc : Thread nD τ).loc main_v5) = ids
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 11).trans (final11 m c), ((h c).1 10).trans (final10 m c),
      ((h c).2 main_v5 (Pipeline.mem_restRefs_of main_v5 (by decide) (by decide))).trans (tail_ids m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c)))⟩) (run_main m ρ)

end Cert.KernelValue

end
-- ==== Proof.RefValue.lean ====
/-
  The reference's results, index by index, are the specification's.

  The reference decodes all points at once into a [50000, 48] array and reshapes it row-major to
  [800000, 3]: row r, column d of the reshape is entry 3 r + d of the flat array, that is point
  r / 16 and decoded coordinate 3 (r % 16) + d.  The features are repeated 16 times along a new
  middle axis and flattened the same way, so row r holds the features of point r / 16.  The two
  are laid side by side into 131 columns and meet the 131-row weight matrix in one sum, which
  splits into the sum over the first three columns and the sum over the other 128.
-/
import proofs.«176419_j4294967296690_1_alg».proof.Proof.Gen.ReferenceIdeal.Read
import proofs.«176419_j4294967296690_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.RefValue

open Idealize.ShloMosaic Idealize.ShloMosaic.TcCoe Idealize.ShloMosaic.ValueIdx
open Cert.ReferenceIdeal Cert.ReferenceIdeal.Gen Cert.ReferenceIdeal.Read

/-- The point an output row belongs to, and its neighbour number. -/
abbrev pointOf (r : Fin 800000) : Fin 50000 := ⟨r.val / 16, by omega⟩
abbrev nbOf (r : Fin 800000) : Fin 16 := ⟨r.val % 16, by omega⟩

variable (x0 : (⟨S50000x160, .f32⟩ : BufTy).Contents (Elt Ideal)) (x1 : (⟨S32x48, .f32⟩ : BufTy).Contents (Elt Ideal))
  (x2 : (⟨S48, .f32⟩ : BufTy).Contents (Elt Ideal)) (x3 : (⟨S131x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x64, .f32⟩ : BufTy).Contents (Elt Ideal))
  (x8 : (⟨S64, .f32⟩ : BufTy).Contents (Elt Ideal))

/-- The decoded array at (n, j). -/
theorem decoded_apply (n : Fin 50000) (j : Fin 48) :
    val_main_v7 (F := Ideal) x0 x1 x2 (ix2 n j) = Spec.decode (Spec.rowOf x0 n) x1 x2 j := by
  rw [val_main_v7_apply, val_main_v6_apply, val_main_v3_apply, val_main_v5_apply, val_main_v4_apply]
  unfold Spec.decode Spec.rowOf
  refine congrArg Ideal.tanh ?_
  refine congrArg₂ (· + ·) (Finset.sum_congr rfl fun k _ => ?_) (congrArg x2 ?_)
  · rw [val_main_v0_apply]
    refine congrArg₂ (· * ·) (congrArg x0 ?_) (congrArg x1 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- Row r, column d of the reshaped decoded array: coordinate d of neighbour r % 16 of point r / 16. -/
theorem coords_apply (r : Fin 800000) (d : Fin 3) :
    val_main_v8 (F := Ideal) x0 x1 x2 (ix2 r d) = Spec.coord (Spec.rowOf x0 (pointOf r)) x1 x2 (nbOf r) d := by
  rw [val_main_v8_apply]
  have e : idx_main_v8 (ix2 r d) = ix2 (pointOf r) (⟨3 * (r.val % 16) + d.val, by omega⟩ : Fin 48) :=
    funext fun a => Fin.ext (by
      match a with
      | ⟨0, _⟩ => show (r.val * 3 + d.val) / 48 = r.val / 16; omega
      | ⟨1, _⟩ => show (r.val * 3 + d.val) % 48 = 3 * (r.val % 16) + d.val; omega)
  rw [e, decoded_apply]
  rfl

/-- Row r, column f of the repeated features: feature f of point r / 16. -/
theorem repeated_apply (r : Fin 800000) (f : Fin 128) :
    val_main_v12 (F := Ideal) x0 (ix2 r f) = Spec.feats (Spec.rowOf x0 (pointOf r)) f := by
  rw [val_main_v12_apply, val_main_v11_apply, val_main_v1_apply]
  unfold Spec.feats Spec.rowOf
  refine congrArg x0 (funext fun a => Fin.ext ?_)
  match a with
  | ⟨0, _⟩ => show (r.val * 128 + f.val) / 2048 = r.val / 16; omega
  | ⟨1, _⟩ => show 32 + (r.val * 128 + f.val) % 128 = 32 + f.val; omega

/-- The 131-column array: its first three columns are the coordinates, -/
theorem joined_left (r : Fin 800000) (d : Fin 3) :
    val_main_v13 (F := Ideal) x0 x1 x2 (ix2 r (⟨d.val, by omega⟩ : Fin 131)) = val_main_v8 (F := Ideal) x0 x1 x2 (ix2 r d) := by
  unfold val_main_v13
  exact concatenate_pair_apply_left (t := S800000x131) (s₁ := S800000x3) (s₂ := S800000x128) (1 : Fin 2) _ _ _ (ix2 r (⟨d.val, by omega⟩ : Fin 131)) rfl (ix2 r d) (fun b => by match b with | ⟨0, _⟩ => rfl | ⟨1, _⟩ => rfl)

/-- its other 128 the repeated features. -/
theorem joined_right (r : Fin 800000) (f : Fin 128) :
    val_main_v13 (F := Ideal) x0 x1 x2 (ix2 r (⟨3 + f.val, by omega⟩ : Fin 131)) = val_main_v12 (F := Ideal) x0 (ix2 r f) := by
  unfold val_main_v13
  refine concatenate_pair_apply_right (t := S800000x131) (s₁ := S800000x3) (s₂ := S800000x128) (1 : Fin 2) _ _ _ (ix2 r (⟨3 + f.val, by omega⟩ : Fin 131)) rfl rfl (ix2 r f) (fun b hb => ?_) ?_
  · match b with
    | ⟨0, _⟩ => rfl
    | ⟨1, _⟩ => exact absurd rfl hb
  · show f.val + 3 = 3 + f.val; omega

/-- The first layer at (r, h). -/
theorem first_apply (r : Fin 800000) (h : Fin 128) :
    val_main_v18 (F := Ideal) x0 x1 x2 x3 x4 (ix2 r h)
      = Spec.layer1 (Spec.coord (Spec.rowOf x0 (pointOf r)) x1 x2 (nbOf r)) (Spec.feats (Spec.rowOf x0 (pointOf r)))
          (Spec.topRows x3) (Spec.restRows x3) x4 h := by
  rw [val_main_v18_apply, val_main_v17_apply, val_main_v14_apply, val_main_v16_apply, val_main_v15_apply,
    val_main_call0_v0_apply, val_main_call0_cst_apply, Spec.sum_131_split]
  unfold Spec.layer1 Spec.topRows Spec.restRows
  refine congrArg₂ max (congrArg₂ (· + ·) (congrArg₂ (· + ·) (Finset.sum_congr rfl fun d _ => ?_) (Finset.sum_congr rfl fun f _ => ?_)) (congrArg x4 ?_)) rfl
  · refine congrArg₂ (· * ·) ?_ (congrArg x3 ?_)
    · refine Eq.trans (congrArg (val_main_v13 (F := Ideal) x0 x1 x2) ?_) ((joined_left x0 x1 x2 r d).trans (coords_apply x0 x1 x2 r d))
      exact funext fun a => Fin.ext (by match a with | ⟨0, _⟩ => rfl | ⟨1, _⟩ => rfl)
    · exact funext fun a => Fin.ext (by match a with | ⟨0, _⟩ => rfl | ⟨1, _⟩ => rfl)
  · refine congrArg₂ (· * ·) ?_ (congrArg x3 ?_)
    · refine Eq.trans (congrArg (val_main_v13 (F := Ideal) x0 x1 x2) ?_) ((joined_right x0 x1 x2 r f).trans (repeated_apply x0 r f))
      exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The second layer at (r, h), over the first layer's row. -/
theorem second_apply (r : Fin 800000) (h : Fin 128) :
    val_main_v23 (F := Ideal) x0 x1 x2 x3 x4 x5 x6 (ix2 r h)
      = Spec.layer (fun j => val_main_v18 (F := Ideal) x0 x1 x2 x3 x4 (ix2 r j)) x5 x6 h := by
  rw [val_main_v23_apply, val_main_v22_apply, val_main_v19_apply, val_main_v21_apply, val_main_v20_apply,
    val_main_call1_v0_apply, val_main_call1_cst_apply]
  unfold Spec.layer
  refine congrArg₂ max (congrArg₂ (· + ·) (Finset.sum_congr rfl fun k _ => congrArg₂ (· * ·) (congrArg _ ?_) (congrArg x5 ?_)) (congrArg x6 ?_)) rfl
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The third layer at (r, c), over the second layer's row. -/
theorem third_apply (r : Fin 800000) (c : Fin 64) :
    val_main_v28 (F := Ideal) x0 x1 x2 x3 x4 x5 x6 x7 x8 (ix2 r c)
      = Spec.layer (fun j => val_main_v23 (F := Ideal) x0 x1 x2 x3 x4 x5 x6 (ix2 r j)) x7 x8 c := by
  rw [val_main_v28_apply, val_main_v27_apply, val_main_v24_apply, val_main_v26_apply, val_main_v25_apply,
    val_main_call2_v0_apply, val_main_call2_cst_apply]
  unfold Spec.layer
  refine congrArg₂ max (congrArg₂ (· + ·) (Finset.sum_congr rfl fun k _ => congrArg₂ (· * ·) (congrArg _ ?_) (congrArg x7 ?_)) (congrArg x8 ?_)) rfl
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The reference's wide result is the specification's. -/
theorem ref_mlp : val_main_v28 (F := Ideal) x0 x1 x2 x3 x4 x5 x6 x7 x8 = Spec.resultMlp x0 x1 x2 x3 x4 x5 x6 x7 x8 := by
  funext i
  obtain ⟨r, c, rfl⟩ : ∃ (r : Fin 800000) (c : Fin 64), i = ix2 r c := ⟨i 0, i 1, eq_ix2 i⟩
  rw [third_apply]
  simp only [second_apply, first_apply]
  rfl

/-- The reference's narrow result is the specification's. -/
theorem ref_offset : val_main_v30 (F := Ideal) x0 x1 x2 = Spec.resultOffset x0 x1 x2 := by
  funext i
  obtain ⟨r, d, rfl⟩ : ∃ (r : Fin 800000) (d : Fin 3), i = ix2 r d := ⟨i 0, i 1, eq_ix2 i⟩
  rw [val_main_v30_apply, val_main_v29_apply, val_main_cst_apply, coords_apply]
  rfl

end Cert.RefValue

end
-- ==== Proof.lean ====
/-
  The kernel computes, for each of 50000 points and each of its 16 neighbours, three decoded
  coordinates (a linear layer and tanh of the point's first 32 features), their product with one
  quarter, and a three-layer perceptron of the coordinates and the point's other 128 features;
  the reference computes the same from one 131-column array per output row.

  The two differ in the first layer only: the reference takes one sum over the 131 columns, the
  kernel a sum over the 3 coordinate columns plus a sum over the 128 feature columns, computed
  once per point.  A finite sum over Fin (3 + 128) splits that way in any commutative additive
  monoid, so the two agree on the extended reals for every input; finiteness of the inputs is not
  used.  Changes of float format are the identity on the extended reals, and max with zero, tanh and
  the one-quarter literal are the same operation on both sides.  The integer result is the same three
  host operations in both programs.
-/
import proofs.«176419_j4294967296690_1_alg».proof.Defs
import proofs.«176419_j4294967296690_1_alg».proof.Proof.Gen.Kernel
import proofs.«176419_j4294967296690_1_alg».proof.Proof.Gen.Kernel.Frame
import proofs.«176419_j4294967296690_1_alg».proof.Proof.Gen.KernelIdeal
import proofs.«176419_j4294967296690_1_alg».proof.Proof.Gen.KernelIdeal.Frame
import proofs.«176419_j4294967296690_1_alg».proof.Proof.Gen.ReferenceIdeal
import proofs.«176419_j4294967296690_1_alg».proof.Proof.Gen.ReferenceIdeal.Run
import proofs.«176419_j4294967296690_1_alg».proof.Proof.Gen.ReferenceIdeal.Read
import proofs.«176419_j4294967296690_1_alg».proof.Proof.Gen.Pre_finite_inputs
import proofs.«176419_j4294967296690_1_alg».proof.Proof.KernelValue
import proofs.«176419_j4294967296690_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the three results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- Both programs end with the specification's three results of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelValue.narrow m c, fun c => Cert.KernelValue.wide m c, fun _ => Cert.KernelValue.ids,
    Cert.KernelValue.run m ρ, ?_⟩
  refine (θ_run Cert.ReferenceIdeal.defs _ _).mono (fun r h c => ?_) (Cert.ReferenceIdeal.Value.run (F := Ideal) m' ρ')
  obtain ⟨a0, a1, a2, a3, a4, a5, a6, a7, a8⟩ := hagree c
  refine ⟨(h c).1.trans ?_, (h c).2.1.trans ?_, (h c).2.2.1.trans ?_, (h c).2.2.2⟩
  · rw [Cert.ReferenceIdeal.Read.val_main_v30_eq, Cert.RefValue.ref_offset, a0, a1, a2]
    rfl
  · rw [Cert.ReferenceIdeal.Read.val_main_v28_eq, Cert.RefValue.ref_mlp, a0, a1, a2, a3, a4, a5, a6, a7, a8]
    rfl
  · rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
